-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000x64 : Shape := ⟨2, ![1250000, 64]⟩
abbrev S64x64 : Shape := ⟨2, ![64, 64]⟩
abbrev S64 : Shape := ⟨1, ![64]⟩
abbrev S192x64 : Shape := ⟨2, ![192, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000x64 : S_.BroadcastsInDim S1250000x64 (![] : Fin 0 → Fin S1250000x64.rank)
  reducesTo_S1250000x64_S_d0_1 : S1250000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S192x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S192x64 .f32 := Host.absf main_arg7
  let main_cst_10 : FVec F S_ .f32 := constant S_ .f32 0x7F800000#32
  let main_v30 : FVec F S192x64 .f32 := broadcastInDim S192x64 ![] bcast_S_S192x64 main_cst_10
  let main_v31 : IVec S192x64 1 := cmpf .olt main_v29 main_v30
  let main_c_11 : IVec S_ 1 := constantI S_ 1 1#1
  let main_v32 : IVec S_ 1 := (fun x v => Host.reduce IntOp.andi x v reducesTo_S192x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1250000 32) (main_arg2 : FVec F S1250000x64 .f32) (main_arg3 : FVec F S64x64 .f32) (main_arg4 : FVec F S64 .f32) (main_arg5 : FVec F S64x64 .f32) (main_arg6 : FVec F S64 .f32) (main_arg7 : FVec F S192x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000x64 .f32 := Host.absf main_arg2
  let main_cst_0 : FVec F S_ .f32 := constant S_ .f32 0x7F800000#32
  let main_v5 : FVec F S1250000x64 .f32 := broadcastInDim S1250000x64 ![] bcast_S_S1250000x64 main_cst_0
  let main_v6 : IVec S1250000x64 1 := cmpf .olt main_v4 main_v5
  let main_c_1 : IVec S_ 1 := constantI S_ 1 1#1
  let main_v7 : IVec S_ 1 := (fun x v => Host.reduce IntOp.andi x v reducesTo_S1250000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1250000 : Shape := ⟨2, ![2, 1250000]⟩
abbrev S1250000x64 : Shape := ⟨2, ![1250000, 64]⟩
abbrev S64x64 : Shape := ⟨2, ![64, 64]⟩
abbrev S64 : Shape := ⟨1, ![64]⟩
abbrev S192x64 : Shape := ⟨2, ![192, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S5000x64 : Shape := ⟨2, ![5000, 64]⟩
abbrev S200000x64 : Shape := ⟨2, ![200000, 64]⟩
abbrev S1x64 : Shape := ⟨2, ![1, 64]⟩
abbrev S4000x64 : Shape := ⟨2, ![4000, 64]⟩

abbrev nBuf : Space → Nat
  | .hbm => 52
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S_, .i32⟩
  | .hbm, ⟨23, _⟩ => ⟨S1250000, .i32⟩
  | .hbm, ⟨24, _⟩ => ⟨S1250000, .i1⟩
  | .hbm, ⟨25, _⟩ => ⟨S_, .i32⟩
  | .hbm, ⟨26, _⟩ => ⟨S1250000, .i32⟩
  | .hbm, ⟨27, _⟩ => ⟨S1250000, .i32⟩
  | .hbm, ⟨28, _⟩ => ⟨S1250000, .i32⟩
  | .hbm, ⟨29, _⟩ => ⟨S1250000x1, .i32⟩
  | .hbm, ⟨30, _⟩ => ⟨S1250000x64, .f32⟩
  | .hbm, ⟨31, _⟩ => ⟨S1250000x64, .f32⟩
  | .hbm, ⟨32, _⟩ => ⟨S1250000x64, .f32⟩
  | .hbm, ⟨33, _⟩ => ⟨S_, .f32⟩
  | .hbm, ⟨34, _⟩ => ⟨S100000x64, .f32⟩
  | .hbm, ⟨35, _⟩ => ⟨S1250000x1, .i32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S1250000x1, .i32⟩
  | .hbm, ⟨40, _⟩ => ⟨S100000x64, .f32⟩
  | .hbm, ⟨41, _⟩ => ⟨S200000x64, .f32⟩
  | .hbm, ⟨42, _⟩ => ⟨S1x64, .f32⟩
  | .hbm, ⟨43, _⟩ => ⟨S1x64, .f32⟩
  | .hbm, ⟨44, _⟩ => ⟨S200000x64, .f32⟩
  | .hbm, ⟨45, _⟩ => ⟨S100000x64, .f32⟩
  | .hbm, ⟨46, _⟩ => ⟨S100000x64, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S1x64, .f32⟩
  | .hbm, ⟨51, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S4000x64, .f32⟩
  | .local _ .vmem, ⟨11, _⟩ => ⟨S4000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S4000x64, .f32⟩
  | .local _ .vmem, ⟨17, _⟩ => ⟨S4000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S_S100000x64 : S_.BroadcastsInDim S100000x64 (![] : Fin 0 → Fin S100000x64.rank)
  concatenates_S100000x64_S100000x64_S200000x64_d0 : Shape.Concatenates [S100000x64, S100000x64] S200000x64 0
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  slices_S200000x64_S100000x64_0_0 : S200000x64.Slices ![0, 0] S100000x64
  slices_S200000x64_S100000x64_100000_0 : S200000x64.Slices ![100000, 0] S100000x64
  slices_S192x64_S64x64_0_0 : S192x64.Slices ![0, 0] S64x64
  slices_S192x64_S64x64_64_0 : S192x64.Slices ![64, 0] S64x64
  slices_S192x64_S64x64_128_0 : S192x64.Slices ![128, 0] S64x64
  shapeCasts_S64x64_S64x64 : S64x64.ShapeCasts S64x64
  broadcasts_S1x64_S5000x64 : S1x64.Broadcasts S5000x64
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S4000x64_S64x64_S4000x64_1_0_0_1_n_n_wf : DotDims.WF S4000x64 S64x64 S4000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1250000x64.size a
  hwx0_0 : ∀ i : grid0.Coords, EltTy.bits .f32 = 32 ∨ (Rect.block (s := S1250000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1250000x64.size a
  hwx0_1 : ∀ i : grid0.Coords, EltTy.bits .f32 = 32 ∨ (Rect.block (s := S1250000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1250000x64.size a
  hwx0_2 : ∀ i : grid0.Coords, EltTy.bits .f32 = 32 ∨ (Rect.block (s := S1250000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S1250000x64.size a
  hwx0_3 : ∀ i : grid0.Coords, EltTy.bits .f32 = 32 ∨ (Rect.block (s := S1250000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S1250000x64.size a
  hwx0_4 : ∀ i : grid0.Coords, EltTy.bits .f32 = 32 ∨ (Rect.block (s := S1250000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S200000x64.size a
  hwx1_0 : ∀ i : grid1.Coords, EltTy.bits .f32 = 32 ∨ (Rect.block (s := S200000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S200000x64.size a
  hwx1_5 : ∀ i : grid1.Coords, EltTy.bits .f32 = 32 ∨ (Rect.block (s := S200000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v31) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v33) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v34) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v35) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000x64 : Shape := ⟨2, ![1250000, 64]⟩
abbrev S64x64 : Shape := ⟨2, ![64, 64]⟩
abbrev S64 : Shape := ⟨1, ![64]⟩
abbrev S192x64 : Shape := ⟨2, ![192, 64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1x64 : Shape := ⟨2, ![1, 64]⟩
abbrev S100000x192 : Shape := ⟨2, ![100000, 192]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S64, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S1250000x64, .f32⟩
  | .hbm, ⟨23, _⟩ => ⟨S_, .f32⟩
  | .hbm, ⟨24, _⟩ => ⟨S1250000x64, .f32⟩
  | .hbm, ⟨25, _⟩ => ⟨S1250000x64, .f32⟩
  | .hbm, ⟨26, _⟩ => ⟨S_, .f32⟩
  | .hbm, ⟨27, _⟩ => ⟨S100000x64, .f32⟩
  | .hbm, ⟨28, _⟩ => ⟨S1250000x1, .i32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S1250000, .i32⟩
  | .hbm, ⟨43, _⟩ => ⟨S1250000, .i1⟩
  | .hbm, ⟨44, _⟩ => ⟨S_, .i32⟩
  | .hbm, ⟨45, _⟩ => ⟨S1250000, .i32⟩
  | .hbm, ⟨46, _⟩ => ⟨S1250000, .i32⟩
  | .hbm, ⟨47, _⟩ => ⟨S1250000, .i32⟩
  | .hbm, ⟨48, _⟩ => ⟨S1250000x1, .i32⟩
  | .hbm, ⟨49, _⟩ => ⟨S1250000x64, .f32⟩
  | .hbm, ⟨50, _⟩ => ⟨S1250000x64, .f32⟩
  | .hbm, ⟨51, _⟩ => ⟨S_, .f32⟩
  | .hbm, ⟨52, _⟩ => ⟨S1250000x64, .f32⟩
  | .hbm, ⟨53, _⟩ => ⟨S1250000x64, .f32⟩
  | .hbm, ⟨54, _⟩ => ⟨S_, .f32⟩
  | .hbm, ⟨55, _⟩ => ⟨S100000x64, .f32⟩
  | .hbm, ⟨56, _⟩ => ⟨S1250000x1, .i32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x192, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S1250000x64 : S_.BroadcastsInDim S1250000x64 (![] : Fin 0 → Fin S1250000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x64_S100000x192_d1 : Shape.Concatenates [S100000x64, S100000x64, S100000x64] S100000x192 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x64_S64x64_S100000x64_1_0_0_1_n_n_wf : DotDims.WF S100000x64 S64x64 S100000x64 [1] [0] [0] [1] [] []
  dot_S100000x192_S192x64_S100000x64_1_0_0_1_n_n_wf : DotDims.WF S100000x192 S192x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.Spec.lean ====
/-
  The arithmetic of the message-passing layer, one node row at a time, on the extended reals.

    * `mlp`: a row `a` of 64 features through the shared two-layer map — hidden unit `l` is
      `max (∑ₖ a k · W₁ k l + b₁ l) 0`, output `q` is `∑ₗ hidden l · W₂ l q + b₂ q`;
    * `projSplit`: the last projection as the kernel forms it, three 64-term products added left to right, then the bias;
    * `projJoined`: the same projection as one 192-term product of the joined row `[x, p, o]`.

  `projJoined_eq_projSplit` is the one law the two programs differ by: a sum over 192 indices is the sum over its three
  consecutive runs of 64. It uses only that addition of extended reals is associative, so no entry need be finite.
  The zero every `max` compares with is kept as the value of the zero word, never evaluated.
-/
import Idealize.ShloMosaic.PureOps.Ideal.Laws
import Idealize.ShloMosaic.Lib.ValueIdx

noncomputable section

open scoped BigOperators

namespace Cert.Bridge.Spec

open Idealize.ShloMosaic

/-- The value of the single-precision zero word. -/
abbrev zeroWord : EReal := Ideal.ofBits .f32 0x00000000#32

/-- Hidden unit `l` of the two-layer map on a row `a`. -/
def hidden (a : Fin 64 → EReal) (W₁ : Fin 64 → Fin 64 → EReal) (b₁ : Fin 64 → EReal) (l : Fin 64) : EReal :=
  max ((∑ k : Fin 64, a k * W₁ k l) + b₁ l) zeroWord

/-- Output feature `q` of the two-layer map on a row `a`. -/
def mlp (a : Fin 64 → EReal) (W₁ : Fin 64 → Fin 64 → EReal) (b₁ : Fin 64 → EReal) (W₂ : Fin 64 → Fin 64 → EReal)
    (b₂ : Fin 64 → EReal) (q : Fin 64) : EReal :=
  (∑ l : Fin 64, hidden a W₁ b₁ l * W₂ l q) + b₂ q

/-- The last projection formed as three partial products, added left to right, then the bias. -/
def projSplit (x p o : Fin 64 → EReal) (Wx Wp Wo : Fin 64 → Fin 64 → EReal) (b : Fin 64 → EReal) (q : Fin 64) : EReal :=
  ((∑ k : Fin 64, x k * Wx k q + ∑ k : Fin 64, p k * Wp k q) + ∑ k : Fin 64, o k * Wo k q) + b q

/-- The three rows joined end to end. -/
def joined (x p o : Fin 64 → EReal) (k : Fin 192) : EReal :=
  if h : k.val < 64 then x ⟨k.val, h⟩
  else if h' : k.val < 128 then p ⟨k.val - 64, by omega⟩
  else o ⟨k.val - 128, by omega⟩

/-- The last projection formed as one product of the joined row. -/
def projJoined (x p o : Fin 64 → EReal) (W : Fin 192 → Fin 64 → EReal) (b : Fin 64 → EReal) (q : Fin 64) : EReal :=
  (∑ k : Fin 192, joined x p o k * W k q) + b q

/-- Rows `0 … 63`, `64 … 127`, `128 … 191` of a 192-row matrix. -/
def topRows (W : Fin 192 → Fin 64 → EReal) : Fin 64 → Fin 64 → EReal := fun k q => W ⟨k.val, by omega⟩ q
def midRows (W : Fin 192 → Fin 64 → EReal) : Fin 64 → Fin 64 → EReal := fun k q => W ⟨64 + k.val, by omega⟩ q
def botRows (W : Fin 192 → Fin 64 → EReal) : Fin 64 → Fin 64 → EReal := fun k q => W ⟨128 + k.val, by omega⟩ q

/-- A sum over 192 consecutive indices is the sum over its three runs of 64. -/
theorem sum_192 (f : Fin 192 → EReal) :
    ∑ k : Fin 192, f k
      = (∑ k : Fin 64, f ⟨k.val, by omega⟩ + ∑ k : Fin 64, f ⟨64 + k.val, by omega⟩) + ∑ k : Fin 64, f ⟨128 + k.val, by omega⟩ := by
  have h1 := Fin.sum_univ_add (M := EReal) (a := 128) (b := 64) f
  have h2 := Fin.sum_univ_add (M := EReal) (a := 64) (b := 64) (fun i : Fin (64 + 64) => f (Fin.castAdd 64 i))
  rw [h2] at h1
  exact h1

/-- The joined product is the three partial products. -/
theorem projJoined_eq_projSplit (x p o : Fin 64 → EReal) (W : Fin 192 → Fin 64 → EReal) (b : Fin 64 → EReal) (q : Fin 64) :
    projJoined x p o W b q = projSplit x p o (topRows W) (midRows W) (botRows W) b q := by
  unfold projJoined projSplit
  rw [sum_192]
  refine congrArg (· + b q) ?_
  refine congrArg₂ (· + ·) (congrArg₂ (· + ·) ?_ ?_) ?_
  · refine Finset.sum_congr rfl fun k _ => ?_
    have hk : (⟨k.val, by omega⟩ : Fin 192).val < 64 := k.isLt
    unfold joined topRows
    rw [dif_pos hk]
  · refine Finset.sum_congr rfl fun k _ => ?_
    have hk : ¬ (⟨64 + k.val, by omega⟩ : Fin 192).val < 64 := by show ¬ 64 + k.val < 64; omega
    have hk' : (⟨64 + k.val, by omega⟩ : Fin 192).val < 128 := by show 64 + k.val < 128; omega
    unfold joined midRows
    rw [dif_neg hk, dif_pos hk']
    refine congrArg (· * _) (congrArg p (Fin.ext ?_))
    show 64 + k.val - 64 = k.val
    omega
  · refine Finset.sum_congr rfl fun k _ => ?_
    have hk : ¬ (⟨128 + k.val, by omega⟩ : Fin 192).val < 64 := by show ¬ 128 + k.val < 64; omega
    have hk' : ¬ (⟨128 + k.val, by omega⟩ : Fin 192).val < 128 := by show ¬ 128 + k.val < 128; omega
    unfold joined botRows
    rw [dif_neg hk, dif_neg hk']
    refine congrArg (· * _) (congrArg o (Fin.ext ?_))
    show 128 + k.val - 128 = k.val
    omega

/-! ## The same, array by array

An array of `r` rows and `c` features is a function on index pairs; `rowIx` and `colIx` are an index's two coordinates as
plain bounded naturals. -/

open Idealize.ShloMosaic.ValueIdx

/-- A single-precision array of `r` rows and `c` columns, at the extended reals. -/
abbrev Arr (r c : Nat) := FVec Ideal ⟨2, ![r, c]⟩ .f32

/-- The row coordinate of an index. -/
abbrev rowIx {r c : Nat} (i : (⟨2, ![r, c]⟩ : Shape).Idx) : Fin r := ⟨(i 0).val, idx2_lt0 i⟩
/-- The column coordinate of an index. -/
abbrev colIx {r c : Nat} (i : (⟨2, ![r, c]⟩ : Shape).Idx) : Fin c := ⟨(i 1).val, idx2_lt1 i⟩

/-- Row `p` of an array. -/
abbrev rowOf {r c : Nat} (A : Arr r c) (p : Fin r) : Fin c → EReal := fun k => A (ix2 p k)
/-- An array as a function of two coordinates. -/
abbrev matOf {r c : Nat} (A : Arr r c) : Fin r → Fin c → EReal := fun p k => A (ix2 p k)

/-- An edge's message: the gathered node row plus the edge's features, rectified. -/
def messages {e : Nat} (X E : Arr e 64) : Arr e 64 := fun i => max (X i + E i) zeroWord

/-- The two-layer map applied to every row of an array (the biases stored as one-row arrays). -/
def mlpArr {r : Nat} (A : Arr r 64) (W₁ : Arr 64 64) (b₁ : Arr 1 64) (W₂ : Arr 64 64) (b₂ : Arr 1 64) : Arr r 64 :=
  fun i => mlp (rowOf A (rowIx i)) (matOf W₁) (rowOf b₁ 0) (matOf W₂) (rowOf b₂ 0) (colIx i)

/-- The last projection applied to every row, as three partial products. -/
def projArr {r : Nat} (X P O : Arr r 64) (Wx Wp Wo : Arr 64 64) (b : Arr 1 64) : Arr r 64 :=
  fun i => projSplit (rowOf X (rowIx i)) (rowOf P (rowIx i)) (rowOf O (rowIx i)) (matOf Wx) (matOf Wp) (matOf Wo) (rowOf b 0) (colIx i)

end Cert.Bridge.Spec

end
-- ==== Proof.EdgeMessages.lean ====
/-
  The first kernel region: every edge's two messages.

  The region walks the 1 250 000 edges in 250 blocks of 5000 rows. At a block it reads the same 5000 rows of the gathered
  source rows, of the gathered destination rows and of the edge features, and writes, entry by entry,
  `max (gathered + feature) 0` to the same rows of each output. Every output index lies in exactly the block numbered by its
  row divided by 5000, so after the region each output array is that function of the whole input arrays.
-/
import proofs.«172405_j30227979829589_1_alg».proof.Proof.Gen.KernelIdeal.Frame
import proofs.«172405_j30227979829589_1_alg».proof.Proof.Spec
import Idealize.ShloMosaic.Lib.Pipeline.Value

noncomputable section

namespace Cert.Bridge.Edge

open Cert.KernelIdeal Cert.KernelIdeal.Gen Idealize.ShloMosaic Idealize.ShloMosaic.TcCoe Idealize.SL.Sem
open Idealize.ShloMosaic.Pipeline (Dat)
open Cert.Bridge

variable (V : (c : Dev nD) → (b : Ref sig .tc) → Buf (Elt Ideal) ((c : Thread nD τ).loc b))

theorem origin : (![0, 0] : Fin 2 → Nat) = fun _ => 0 := funext fun a => by fin_cases a <;> rfl

/-- The body's value for the first output is the message function of the two blocks it loads. -/
theorem payload_fwd (e x : Vec Ideal S5000x64 .f32) : k0_pay1 e x = Spec.messages x e := by
  unfold k0_pay1
  rw [shapeCast_self]
  rfl

/-- The body's value for the second output likewise. -/
theorem payload_bwd (e x : Vec Ideal S5000x64 .f32) : k0_pay2 e x = Spec.messages x e := by
  unfold k0_pay2
  rw [shapeCast_self]
  rfl

/-- All five windows sit on block row `t`, column block 0, at point `t`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Where a block's entry sits in its array

Row `y` of the block at point `t` is array row `5000 t + y` in every window, so an input block is read exactly where the
output block is written. -/

theorem emb_0_3 (t : Fin cfg0.N) (j : S5000x64.Idx) : ((cfg0.win 0).blk t).view.emb j = ((cfg0.win 3).blk t).view.emb j := by
  obtain ⟨a0, a1, -, -, -, -, d0, d1, -, -⟩ := block_index t
  funext a; apply Fin.ext
  match a with
  | ⟨0, _⟩ => show win0_0.index t (0 : Fin 2) * 5000 + 1 * (j 0).val = win0_3.index t (0 : Fin 2) * 5000 + 1 * (j 0).val; omega
  | ⟨1, _⟩ => show win0_0.index t (1 : Fin 2) * 64 + 1 * (j 1).val = win0_3.index t (1 : Fin 2) * 64 + 1 * (j 1).val; omega

theorem emb_2_3 (t : Fin cfg0.N) (j : S5000x64.Idx) : ((cfg0.win 2).blk t).view.emb j = ((cfg0.win 3).blk t).view.emb j := by
  obtain ⟨-, -, -, -, c0, c1, d0, d1, -, -⟩ := block_index t
  funext a; apply Fin.ext
  match a with
  | ⟨0, _⟩ => show win0_2.index t (0 : Fin 2) * 5000 + 1 * (j 0).val = win0_3.index t (0 : Fin 2) * 5000 + 1 * (j 0).val; omega
  | ⟨1, _⟩ => show win0_2.index t (1 : Fin 2) * 64 + 1 * (j 1).val = win0_3.index t (1 : Fin 2) * 64 + 1 * (j 1).val; omega

theorem emb_1_4 (t : Fin cfg0.N) (j : S5000x64.Idx) : ((cfg0.win 1).blk t).view.emb j = ((cfg0.win 4).blk t).view.emb j := by
  obtain ⟨-, -, b0, b1, -, -, -, -, e0, e1⟩ := block_index t
  funext a; apply Fin.ext
  match a with
  | ⟨0, _⟩ => show win0_1.index t (0 : Fin 2) * 5000 + 1 * (j 0).val = win0_4.index t (0 : Fin 2) * 5000 + 1 * (j 0).val; omega
  | ⟨1, _⟩ => show win0_1.index t (1 : Fin 2) * 64 + 1 * (j 1).val = win0_4.index t (1 : Fin 2) * 64 + 1 * (j 1).val; omega

theorem emb_2_4 (t : Fin cfg0.N) (j : S5000x64.Idx) : ((cfg0.win 2).blk t).view.emb j = ((cfg0.win 4).blk t).view.emb j := by
  obtain ⟨-, -, -, -, c0, c1, -, -, e0, e1⟩ := block_index t
  funext a; apply Fin.ext
  match a with
  | ⟨0, _⟩ => show win0_2.index t (0 : Fin 2) * 5000 + 1 * (j 0).val = win0_4.index t (0 : Fin 2) * 5000 + 1 * (j 0).val; omega
  | ⟨1, _⟩ => show win0_2.index t (1 : Fin 2) * 64 + 1 * (j 1).val = win0_4.index t (1 : Fin 2) * 64 + 1 * (j 1).val; omega

/-! ## What a point writes back is a block of the whole-array function -/

theorem flushed_fwd (c : Dev nD) (t : Fin cfg0.N) :
    (dat0 V c).flushed 3 t = ((cfg0.win 3).blk t).view.read (Elt Ideal) (Spec.messages (V c main_v10) (V c main_arg2)) := by
  show (cfg0.win 3).cut (grid0.coords t) ((dat0 V c).after 3 t) = _
  rw [after0_3]
  unfold out0_3
  rw [View.canon_unit_zero origin]
  simp only [View.ld_unit_zero (S := S5000x64) origin]
  rw [payload_fwd]
  funext j
  refine congrArg₂ (fun a b : EReal => max (a + b) Spec.zeroWord) ?_ ?_
  · show V c main_v10 (((cfg0.win 0).blk t).view.emb j) = V c main_v10 (((cfg0.win 3).blk t).view.emb j)
    rw [emb_0_3]
  · show V c main_arg2 (((cfg0.win 2).blk t).view.emb j) = V c main_arg2 (((cfg0.win 3).blk t).view.emb j)
    rw [emb_2_3]

theorem flushed_bwd (c : Dev nD) (t : Fin cfg0.N) :
    (dat0 V c).flushed 4 t = ((cfg0.win 4).blk t).view.read (Elt Ideal) (Spec.messages (V c main_v17) (V c main_arg2)) := by
  show (cfg0.win 4).cut (grid0.coords t) ((dat0 V c).after 4 t) = _
  rw [after0_4]
  unfold out0_4
  rw [View.canon_unit_zero origin]
  simp only [View.ld_unit_zero (S := S5000x64) origin]
  rw [payload_bwd]
  funext j
  refine congrArg₂ (fun a b : EReal => max (a + b) Spec.zeroWord) ?_ ?_
  · show V c main_v17 (((cfg0.win 1).blk t).view.emb j) = V c main_v17 (((cfg0.win 4).blk t).view.emb j)
    rw [emb_1_4]
  · show V c main_arg2 (((cfg0.win 2).blk t).view.emb j) = V c main_arg2 (((cfg0.win 4).blk t).view.emb j)
    rw [emb_2_4]

/-! ## The blocks cover the arrays -/

theorem mem_block_fwd (t : Fin cfg0.N) (i : S1250000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v18_0).slice (win0_3.rect t)).set ↔ _
  rw [View.set_slice_whole, Rect.mem_set_unit]
  exact Iff.rfl

theorem mem_block_bwd (t : Fin cfg0.N) (i : S1250000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v18_1).slice (win0_4.rect t)).set ↔ _
  rw [View.set_slice_whole, Rect.mem_set_unit]
  exact Iff.rfl

/-- The point whose block holds row `r` is `r / 5000`. -/
def pointOf (i : S1250000x64.Idx) : Fin cfg0.N :=
  ⟨(i 0).val / 5000, lt_of_lt_of_eq (by have := ValueIdx.idx2_lt0 i; show (i 0).val / 5000 < 250; omega) N_0.symm⟩

theorem covered_fwd (i : S1250000x64.Idx) :
    ∃ t : Fin cfg0.N, (cfg0.win 3).flush t = true ∧ i ∈ ((cfg0.win 3).blk t).view.set := by
  have hi1 : (i 1).val < 64 := (i 1).isLt
  obtain ⟨-, -, -, -, -, -, d0, d1, -, -⟩ := block_index (pointOf i)
  refine ⟨pointOf i, flush0_3 _, ?_⟩
  rw [mem_block_fwd]
  intro a
  match a with
  | ⟨0, _⟩ =>
    show win0_3.index (pointOf i) (0 : Fin 2) * 5000 ≤ (i 0).val ∧ (i 0).val < win0_3.index (pointOf i) (0 : Fin 2) * 5000 + 5000
    rw [d0]; show (i 0).val / 5000 * 5000 ≤ (i 0).val ∧ (i 0).val < (i 0).val / 5000 * 5000 + 5000; omega
  | ⟨1, _⟩ =>
    show win0_3.index (pointOf i) (1 : Fin 2) * 64 ≤ (i 1).val ∧ (i 1).val < win0_3.index (pointOf i) (1 : Fin 2) * 64 + 64
    rw [d1]; omega

theorem covered_bwd (i : S1250000x64.Idx) :
    ∃ t : Fin cfg0.N, (cfg0.win 4).flush t = true ∧ i ∈ ((cfg0.win 4).blk t).view.set := by
  have hi1 : (i 1).val < 64 := (i 1).isLt
  obtain ⟨-, -, -, -, -, -, -, -, e0, e1⟩ := block_index (pointOf i)
  refine ⟨pointOf i, flush0_4 _, ?_⟩
  rw [mem_block_bwd]
  intro a
  match a with
  | ⟨0, _⟩ =>
    show win0_4.index (pointOf i) (0 : Fin 2) * 5000 ≤ (i 0).val ∧ (i 0).val < win0_4.index (pointOf i) (0 : Fin 2) * 5000 + 5000
    rw [e0]; show (i 0).val / 5000 * 5000 ≤ (i 0).val ∧ (i 0).val < (i 0).val / 5000 * 5000 + 5000; omega
  | ⟨1, _⟩ =>
    show win0_4.index (pointOf i) (1 : Fin 2) * 64 ≤ (i 1).val ∧ (i 1).val < win0_4.index (pointOf i) (1 : Fin 2) * 64 + 64
    rw [e1]; omega

/-! ## The two message arrays after the region -/

/-- The forward messages: gathered source row plus edge features, rectified. -/
theorem forward_messages (c : Dev nD) :
    (dat0 V c).arrAt 3 cfg0.N = Spec.messages (V c main_v10) (V c main_arg2) :=
  (dat0 V c).arrAt_eq_of_cover 3 _ (fun t _ => flushed_fwd V c t) covered_fwd

/-- The backward messages: gathered destination row plus edge features, rectified. -/
theorem backward_messages (c : Dev nD) :
    (dat0 V c).arrAt 4 cfg0.N = Spec.messages (V c main_v17) (V c main_arg2) :=
  (dat0 V c).arrAt_eq_of_cover 4 _ (fun t _ => flushed_bwd V c t) covered_bwd

end Cert.Bridge.Edge

end
-- ==== Proof.Stretches.lean ====
/-
  The host operations between the kernel regions, read as functions of the launch arrays.

  Before the first region the program slices the two index rows out of the edge list, wraps negative indices, and
  gathers a node row per edge for each direction. Between the first and second regions it adds every edge's message
  into its node's row (once by destination, once by source), stacks the two aggregates, and reshapes the two biases to
  one-row arrays. Between the second and third it cuts the stack back into its halves, cuts the projection matrix into
  its three 64-row bands, and reshapes the last bias. No operation writes an argument array, so an argument read at
  any boundary is the launch array.
-/
import proofs.«172405_j30227979829589_1_alg».proof.Proof.Gen.KernelIdeal.Frame
import proofs.«172405_j30227979829589_1_alg».proof.Proof.Gen.ReferenceIdeal.Read
import proofs.«172405_j30227979829589_1_alg».proof.Proof.Spec
import proofs.«172405_j30227979829589_1_alg».proof.Proof.EdgeMessages
import Idealize.ShloMosaic.Lib.StableHlo.Run

noncomputable section

namespace Cert.Bridge.Stretch

open Cert.KernelIdeal Cert.KernelIdeal.Gen Idealize.ShloMosaic Idealize.ShloMosaic.TcCoe Idealize.SL.Sem Idealize.ShloMosaic.StableHlo
open Cert.Bridge
open Cert.ReferenceIdeal.Read (val_main_v1 val_main_v3 val_main_v10 val_main_v13 val_main_v16 val_main_v33 val_main_v36 val_main_v39)

variable (m : (ℓ : Loc nD τ sig) → Buf (Elt Ideal) ℓ) (ρ : Dev nD → PrngReg)

/-! ## Before the first region -/

/-- The node rows gathered by source index are the reference's gather of the same arrays. -/
theorem gathered_src (c : Dev nD) : V1 m ρ c main_v10 = val_main_v10 (F := Ideal) (m ((c.tc : Thread nD τ).loc main_arg0)) (m ((c.tc : Thread nD τ).loc main_arg1)) := by
  show StableHlo.after hostOps0 (W0 m ρ c) (Proc.devRef .tc main_v10) = _
  after_results
  rfl

/-- The node rows gathered by destination index likewise. -/
theorem gathered_dst (c : Dev nD) : V1 m ρ c main_v17 = val_main_v33 (F := Ideal) (m ((c.tc : Thread nD τ).loc main_arg0)) (m ((c.tc : Thread nD τ).loc main_arg1)) := by
  show StableHlo.after hostOps0 (W0 m ρ c) (Proc.devRef .tc main_v17) = _
  after_results
  rfl

/-- The source index row. -/
theorem src_row (c : Dev nD) : W1 m ρ c (Proc.devRef .tc main_v1) = val_main_v1 (F := Ideal) (m ((c.tc : Thread nD τ).loc main_arg1)) := by
  show StableHlo.after hostOps0 (W0 m ρ c) (Proc.devRef .tc main_v1) = _
  after_results
  rfl

/-- The destination index row. -/
theorem dst_row (c : Dev nD) : W1 m ρ c (Proc.devRef .tc main_v3) = val_main_v3 (F := Ideal) (m ((c.tc : Thread nD τ).loc main_arg1)) := by
  show StableHlo.after hostOps0 (W0 m ρ c) (Proc.devRef .tc main_v3) = _
  after_results
  rfl

/-- The first stretch writes no argument. -/
theorem stretch0_keeps (W : Valuation τ sig (Elt Ideal)) :
    StableHlo.after hostOps0 W (Proc.devRef .tc main_arg0) = W (Proc.devRef .tc main_arg0)
    ∧ StableHlo.after hostOps0 W (Proc.devRef .tc main_arg2) = W (Proc.devRef .tc main_arg2)
    ∧ StableHlo.after hostOps0 W (Proc.devRef .tc main_arg3) = W (Proc.devRef .tc main_arg3)
    ∧ StableHlo.after hostOps0 W (Proc.devRef .tc main_arg4) = W (Proc.devRef .tc main_arg4)
    ∧ StableHlo.after hostOps0 W (Proc.devRef .tc main_arg5) = W (Proc.devRef .tc main_arg5)
    ∧ StableHlo.after hostOps0 W (Proc.devRef .tc main_arg6) = W (Proc.devRef .tc main_arg6)
    ∧ StableHlo.after hostOps0 W (Proc.devRef .tc main_arg7) = W (Proc.devRef .tc main_arg7)
    ∧ StableHlo.after hostOps0 W (Proc.devRef .tc main_arg8) = W (Proc.devRef .tc main_arg8) := by
  refine ⟨?_, ?_, ?_, ?_, ?_, ?_, ?_, ?_⟩ <;> first | (after_results; done) | (after_results; rfl)

/-- An argument read when the first region is entered is the launch array. -/
theorem at1_arg0 (c : Dev nD) : W1 m ρ c (Proc.devRef .tc main_arg0) = (m ((c.tc : Thread nD τ).loc main_arg0)) := (stretch0_keeps (W0 m ρ c)).1
theorem at1_arg2 (c : Dev nD) : W1 m ρ c (Proc.devRef .tc main_arg2) = (m ((c.tc : Thread nD τ).loc main_arg2)) := (stretch0_keeps (W0 m ρ c)).2.1
theorem at1_arg3 (c : Dev nD) : W1 m ρ c (Proc.devRef .tc main_arg3) = (m ((c.tc : Thread nD τ).loc main_arg3)) := (stretch0_keeps (W0 m ρ c)).2.2.1
theorem at1_arg4 (c : Dev nD) : W1 m ρ c (Proc.devRef .tc main_arg4) = (m ((c.tc : Thread nD τ).loc main_arg4)) := (stretch0_keeps (W0 m ρ c)).2.2.2.1
theorem at1_arg5 (c : Dev nD) : W1 m ρ c (Proc.devRef .tc main_arg5) = (m ((c.tc : Thread nD τ).loc main_arg5)) := (stretch0_keeps (W0 m ρ c)).2.2.2.2.1
theorem at1_arg6 (c : Dev nD) : W1 m ρ c (Proc.devRef .tc main_arg6) = (m ((c.tc : Thread nD τ).loc main_arg6)) := (stretch0_keeps (W0 m ρ c)).2.2.2.2.2.1
theorem at1_arg7 (c : Dev nD) : W1 m ρ c (Proc.devRef .tc main_arg7) = (m ((c.tc : Thread nD τ).loc main_arg7)) := (stretch0_keeps (W0 m ρ c)).2.2.2.2.2.2.1
theorem at1_arg8 (c : Dev nD) : W1 m ρ c (Proc.devRef .tc main_arg8) = (m ((c.tc : Thread nD τ).loc main_arg8)) := (stretch0_keeps (W0 m ρ c)).2.2.2.2.2.2.2

/-- The edge features as the first region finds them. -/
theorem edge_features (c : Dev nD) : V1 m ρ c main_arg2 = (m ((c.tc : Thread nD τ).loc main_arg2)) := at1_arg2 m ρ c

/-! ## Between the first and second regions -/

/-- The stacked aggregates, from any contents of the two message arrays and the two index rows. -/
theorem stretch1_stack (W : Valuation τ sig (Elt Ideal)) :
    StableHlo.after hostOps1 W (Proc.devRef .tc main_v25)
      = concatenate S200000x64 0
          [⟨S100000x64, Host.scatterAdd scatter_S100000x64_S1250000x1_S1250000x64_1_0_0_1 (broadcastInDim S100000x64 ![] bcast_S_S100000x64 (constant (F := Ideal) S_ .f32 0x00000000#32))
              (broadcastInDim S1250000x1 ![0] bcast_S1250000_S1250000x1_0 (W (Proc.devRef .tc main_v3))) (W (Proc.devRef .tc main_v18_0))⟩,
           ⟨S100000x64, Host.scatterAdd scatter_S100000x64_S1250000x1_S1250000x64_1_0_0_1 (broadcastInDim S100000x64 ![] bcast_S_S100000x64 (constant (F := Ideal) S_ .f32 0x00000000#32))
              (broadcastInDim S1250000x1 ![0] bcast_S1250000_S1250000x1_0 (W (Proc.devRef .tc main_v1))) (W (Proc.devRef .tc main_v18_1))⟩]
          concatenates_S100000x64_S100000x64_S200000x64_d0 := by
  after_results <;> rfl

/-- The two biases become one-row arrays; the weights and the later arguments are not written. -/
theorem stretch1_rest (W : Valuation τ sig (Elt Ideal)) :
    StableHlo.after hostOps1 W (Proc.devRef .tc main_v26) = shapeCast S1x64 (W (Proc.devRef .tc main_arg4)) shapeCasts_S64_S1x64
    ∧ StableHlo.after hostOps1 W (Proc.devRef .tc main_v27) = shapeCast S1x64 (W (Proc.devRef .tc main_arg6)) shapeCasts_S64_S1x64
    ∧ StableHlo.after hostOps1 W (Proc.devRef .tc main_arg0) = W (Proc.devRef .tc main_arg0)
    ∧ StableHlo.after hostOps1 W (Proc.devRef .tc main_arg3) = W (Proc.devRef .tc main_arg3)
    ∧ StableHlo.after hostOps1 W (Proc.devRef .tc main_arg5) = W (Proc.devRef .tc main_arg5)
    ∧ StableHlo.after hostOps1 W (Proc.devRef .tc main_arg7) = W (Proc.devRef .tc main_arg7)
    ∧ StableHlo.after hostOps1 W (Proc.devRef .tc main_arg8) = W (Proc.devRef .tc main_arg8) := by
  refine ⟨?_, ?_, ?_, ?_, ?_, ?_, ?_⟩ <;> first | (after_results; done) | (after_results; rfl)

/-- The forward messages are the reference's: gathered source row plus edge features, rectified. -/
theorem messages_fwd (x0 : Spec.Arr 100000 64) (x1 : (⟨S2x1250000, .i32⟩ : BufTy).Contents (Elt Ideal)) (x2 : Spec.Arr 1250000 64) :
    Spec.messages (val_main_v10 (F := Ideal) x0 x1) x2 = val_main_v13 (F := Ideal) x0 x1 x2 := funext fun _ => rfl

/-- The backward messages likewise. -/
theorem messages_bwd (x0 : Spec.Arr 100000 64) (x1 : (⟨S2x1250000, .i32⟩ : BufTy).Contents (Elt Ideal)) (x2 : Spec.Arr 1250000 64) :
    Spec.messages (val_main_v33 (F := Ideal) x0 x1) x2 = val_main_v36 (F := Ideal) x0 x1 x2 := funext fun _ => rfl

/-- An argument read when the first region is left is the launch array. -/
theorem at2_arg0 (c : Dev nD) : W2 m ρ c (Proc.devRef .tc main_arg0) = (m ((c.tc : Thread nD τ).loc main_arg0)) := (W2_of_ne m ρ c main_arg0 (by decide)).trans (at1_arg0 m ρ c)
theorem at2_arg3 (c : Dev nD) : W2 m ρ c (Proc.devRef .tc main_arg3) = (m ((c.tc : Thread nD τ).loc main_arg3)) := (W2_of_ne m ρ c main_arg3 (by decide)).trans (at1_arg3 m ρ c)
theorem at2_arg4 (c : Dev nD) : W2 m ρ c (Proc.devRef .tc main_arg4) = (m ((c.tc : Thread nD τ).loc main_arg4)) := (W2_of_ne m ρ c main_arg4 (by decide)).trans (at1_arg4 m ρ c)
theorem at2_arg5 (c : Dev nD) : W2 m ρ c (Proc.devRef .tc main_arg5) = (m ((c.tc : Thread nD τ).loc main_arg5)) := (W2_of_ne m ρ c main_arg5 (by decide)).trans (at1_arg5 m ρ c)
theorem at2_arg6 (c : Dev nD) : W2 m ρ c (Proc.devRef .tc main_arg6) = (m ((c.tc : Thread nD τ).loc main_arg6)) := (W2_of_ne m ρ c main_arg6 (by decide)).trans (at1_arg6 m ρ c)
theorem at2_arg7 (c : Dev nD) : W2 m ρ c (Proc.devRef .tc main_arg7) = (m ((c.tc : Thread nD τ).loc main_arg7)) := (W2_of_ne m ρ c main_arg7 (by decide)).trans (at1_arg7 m ρ c)
theorem at2_arg8 (c : Dev nD) : W2 m ρ c (Proc.devRef .tc main_arg8) = (m ((c.tc : Thread nD τ).loc main_arg8)) := (W2_of_ne m ρ c main_arg8 (by decide)).trans (at1_arg8 m ρ c)

/-- What the second region finds in its first window: the reference's two aggregates, stacked. -/
theorem stacked (c : Dev nD) :
    V3 m ρ c main_v25
      = concatenate S200000x64 0
          [⟨S100000x64, val_main_v16 (F := Ideal) (m ((c.tc : Thread nD τ).loc main_arg0)) (m ((c.tc : Thread nD τ).loc main_arg1)) (m ((c.tc : Thread nD τ).loc main_arg2))⟩,
           ⟨S100000x64, val_main_v39 (F := Ideal) (m ((c.tc : Thread nD τ).loc main_arg0)) (m ((c.tc : Thread nD τ).loc main_arg1)) (m ((c.tc : Thread nD τ).loc main_arg2))⟩]
          concatenates_S100000x64_S100000x64_S200000x64_d0 := by
  show StableHlo.after hostOps1 (W2 m ρ c) (Proc.devRef .tc main_v25) = _
  rw [stretch1_stack]
  rw [W2_of_ne m ρ c main_v3 (by decide), W2_of_ne m ρ c main_v1 (by decide), dst_row, src_row]
  rw [show W2 m ρ c (Proc.devRef .tc main_v18_0) = (dat0 (V1 m ρ) c).arrAt 3 cfg0.N from W2_arr m ρ c 3,
    show W2 m ρ c (Proc.devRef .tc main_v18_1) = (dat0 (V1 m ρ) c).arrAt 4 cfg0.N from W2_arr m ρ c 4]
  rw [Edge.forward_messages, Edge.backward_messages, gathered_src, gathered_dst, edge_features, messages_fwd, messages_bwd]
  rfl

/-- The weights and biases as the second region finds them. -/
theorem at3_arg3 (c : Dev nD) : V3 m ρ c main_arg3 = (m ((c.tc : Thread nD τ).loc main_arg3)) := ((stretch1_rest (W2 m ρ c)).2.2.2.1).trans (at2_arg3 m ρ c)
theorem at3_arg5 (c : Dev nD) : V3 m ρ c main_arg5 = (m ((c.tc : Thread nD τ).loc main_arg5)) := ((stretch1_rest (W2 m ρ c)).2.2.2.2.1).trans (at2_arg5 m ρ c)
theorem at3_bias1 (c : Dev nD) : V3 m ρ c main_v26 = shapeCast S1x64 (m ((c.tc : Thread nD τ).loc main_arg4)) shapeCasts_S64_S1x64 := by
  refine ((stretch1_rest (W2 m ρ c)).1).trans ?_
  rw [at2_arg4]
theorem at3_bias2 (c : Dev nD) : V3 m ρ c main_v27 = shapeCast S1x64 (m ((c.tc : Thread nD τ).loc main_arg6)) shapeCasts_S64_S1x64 := by
  refine ((stretch1_rest (W2 m ρ c)).2.1).trans ?_
  rw [at2_arg6]
theorem at3_arg0 (c : Dev nD) : W3 m ρ c (Proc.devRef .tc main_arg0) = (m ((c.tc : Thread nD τ).loc main_arg0)) := ((stretch1_rest (W2 m ρ c)).2.2.1).trans (at2_arg0 m ρ c)
theorem at3_arg7 (c : Dev nD) : W3 m ρ c (Proc.devRef .tc main_arg7) = (m ((c.tc : Thread nD τ).loc main_arg7)) := ((stretch1_rest (W2 m ρ c)).2.2.2.2.2.1).trans (at2_arg7 m ρ c)
theorem at3_arg8 (c : Dev nD) : W3 m ρ c (Proc.devRef .tc main_arg8) = (m ((c.tc : Thread nD τ).loc main_arg8)) := ((stretch1_rest (W2 m ρ c)).2.2.2.2.2.2).trans (at2_arg8 m ρ c)

/-! ## Between the second and third regions -/

/-- The stack cut into its halves, the projection matrix into its three bands, the last bias reshaped. -/
theorem stretch2_reads (W : Valuation τ sig (Elt Ideal)) :
    StableHlo.after hostOps2 W (Proc.devRef .tc main_v29) = extractStridedSlice S100000x64 ![0, 0] (W (Proc.devRef .tc main_v28)) slices_S200000x64_S100000x64_0_0
    ∧ StableHlo.after hostOps2 W (Proc.devRef .tc main_v30) = extractStridedSlice S100000x64 ![100000, 0] (W (Proc.devRef .tc main_v28)) slices_S200000x64_S100000x64_100000_0
    ∧ StableHlo.after hostOps2 W (Proc.devRef .tc main_v31) = extractStridedSlice S64x64 ![0, 0] (W (Proc.devRef .tc main_arg7)) slices_S192x64_S64x64_0_0
    ∧ StableHlo.after hostOps2 W (Proc.devRef .tc main_v32) = extractStridedSlice S64x64 ![64, 0] (W (Proc.devRef .tc main_arg7)) slices_S192x64_S64x64_64_0
    ∧ StableHlo.after hostOps2 W (Proc.devRef .tc main_v33) = extractStridedSlice S64x64 ![128, 0] (W (Proc.devRef .tc main_arg7)) slices_S192x64_S64x64_128_0
    ∧ StableHlo.after hostOps2 W (Proc.devRef .tc main_v34) = shapeCast S1x64 (W (Proc.devRef .tc main_arg8)) shapeCasts_S64_S1x64
    ∧ StableHlo.after hostOps2 W (Proc.devRef .tc main_arg0) = W (Proc.devRef .tc main_arg0) := by
  refine ⟨?_, ?_, ?_, ?_, ?_, ?_, ?_⟩ <;> first | (after_results; done) | (after_results; rfl)

theorem at4_arg0 (c : Dev nD) : W4 m ρ c (Proc.devRef .tc main_arg0) = (m ((c.tc : Thread nD τ).loc main_arg0)) := (W4_of_ne m ρ c main_arg0 (by decide)).trans (at3_arg0 m ρ c)
theorem at4_arg7 (c : Dev nD) : W4 m ρ c (Proc.devRef .tc main_arg7) = (m ((c.tc : Thread nD τ).loc main_arg7)) := (W4_of_ne m ρ c main_arg7 (by decide)).trans (at3_arg7 m ρ c)
theorem at4_arg8 (c : Dev nD) : W4 m ρ c (Proc.devRef .tc main_arg8) = (m ((c.tc : Thread nD τ).loc main_arg8)) := (W4_of_ne m ρ c main_arg8 (by decide)).trans (at3_arg8 m ρ c)

/-- What the third region finds in each of its windows. -/
theorem at5_nodes (c : Dev nD) : V5 m ρ c main_arg0 = (m ((c.tc : Thread nD τ).loc main_arg0)) := ((stretch2_reads (W4 m ρ c)).2.2.2.2.2.2).trans (at4_arg0 m ρ c)
theorem at5_in (c : Dev nD) :
    V5 m ρ c main_v29 = extractStridedSlice S100000x64 ![0, 0] ((dat1 (V3 m ρ) c).arrAt 5 cfg1.N) slices_S200000x64_S100000x64_0_0 := by
  refine ((stretch2_reads (W4 m ρ c)).1).trans ?_
  rw [show W4 m ρ c (Proc.devRef .tc main_v28) = (dat1 (V3 m ρ) c).arrAt 5 cfg1.N from W4_arr m ρ c 5]
theorem at5_out (c : Dev nD) :
    V5 m ρ c main_v30 = extractStridedSlice S100000x64 ![100000, 0] ((dat1 (V3 m ρ) c).arrAt 5 cfg1.N) slices_S200000x64_S100000x64_100000_0 := by
  refine ((stretch2_reads (W4 m ρ c)).2.1).trans ?_
  rw [show W4 m ρ c (Proc.devRef .tc main_v28) = (dat1 (V3 m ρ) c).arrAt 5 cfg1.N from W4_arr m ρ c 5]
theorem at5_top (c : Dev nD) : V5 m ρ c main_v31 = extractStridedSlice S64x64 ![0, 0] (m ((c.tc : Thread nD τ).loc main_arg7)) slices_S192x64_S64x64_0_0 := by
  refine ((stretch2_reads (W4 m ρ c)).2.2.1).trans ?_
  rw [at4_arg7]
theorem at5_mid (c : Dev nD) : V5 m ρ c main_v32 = extractStridedSlice S64x64 ![64, 0] (m ((c.tc : Thread nD τ).loc main_arg7)) slices_S192x64_S64x64_64_0 := by
  refine ((stretch2_reads (W4 m ρ c)).2.2.2.1).trans ?_
  rw [at4_arg7]
theorem at5_bot (c : Dev nD) : V5 m ρ c main_v33 = extractStridedSlice S64x64 ![128, 0] (m ((c.tc : Thread nD τ).loc main_arg7)) slices_S192x64_S64x64_128_0 := by
  refine ((stretch2_reads (W4 m ρ c)).2.2.2.2.1).trans ?_
  rw [at4_arg7]
theorem at5_bias (c : Dev nD) : V5 m ρ c main_v34 = shapeCast S1x64 (m ((c.tc : Thread nD τ).loc main_arg8)) shapeCasts_S64_S1x64 := by
  refine ((stretch2_reads (W4 m ρ c)).2.2.2.2.2.1).trans ?_
  rw [at4_arg8]

end Cert.Bridge.Stretch

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.NodeMlp.lean ====
/-
  The second kernel region: the shared two-layer map on every row of the stacked aggregates.
-/
import proofs.«172405_j30227979829589_1_alg».proof.Proof.Gen.KernelIdeal.Frame
import proofs.«172405_j30227979829589_1_alg».proof.Proof.Spec
import proofs.«172405_j30227979829589_1_alg».proof.Proof.LibRowwise
import Idealize.ShloMosaic.Lib.Pipeline.Value
import Idealize.ShloMosaic.Lib.ValueLayout

noncomputable section

namespace Cert.Bridge.Mlp

open Cert.KernelIdeal Cert.KernelIdeal.Gen Idealize.ShloMosaic Idealize.ShloMosaic.TcCoe Idealize.SL.Sem
open Idealize.ShloMosaic.Pipeline (Dat)
open Idealize.ShloMosaic.ValueIdx
open Cert.Bridge

variable (V : (c : Dev nD) → (b : Ref sig .tc) → Buf (Elt Ideal) ((c : Thread nD τ).loc b))

theorem origin : (![0, 0] : Fin 2 → Nat) = fun _ => 0 := funext fun a => by fin_cases a <;> rfl

/-- The body's value at row `p`, feature `q` is the two-layer map of row `p` of the block it loads. -/
theorem payload (A : Vec Ideal S4000x64 .f32) (W1 : Vec Ideal S64x64 .f32) (b1 : Vec Ideal S1x64 .f32)
    (W2 : Vec Ideal S64x64 .f32) (b2 : Vec Ideal S1x64 .f32) (p : Fin 4000) (q : Fin 64) :
    k1_pay1 A W1 b1 W2 b2 (ix2 p q)
      = Spec.mlp (Spec.rowOf A p) (Spec.matOf W1) (Spec.rowOf b1 0) (Spec.matOf W2) (Spec.rowOf b2 0) q := by
  unfold k1_pay1 Spec.mlp
  have hd : dot_S4000x64_S64x64_S4000x64_1_0_0_1_n_n = DotDims.plain 4000 64 64 :=
    Cert.Lib.Rowwise.eq_plain _ rfl rfl rfl rfl rfl rfl
  rw [hd]
  refine (addf_apply _ _ _).trans ?_
  refine congrArg₂ (· + ·) ?_ ?_
  · -- the second product: hidden units against the second weight matrix
    refine (Cert.Lib.Rowwise.plain_matmul_zero_apply none _ _ p q).trans ?_
    refine Finset.sum_congr rfl fun l _ => ?_
    refine congrArg₂ (· * ·) ?_ rfl
    unfold Spec.hidden
    refine (truncf_apply (ψ := .bf16) _ bitsLt_bf16_f32 _).trans ?_
    refine (maximumf_apply _ _ _).trans ?_
    refine congrArg₂ max ?_ rfl
    refine (addf_apply _ _ _).trans ?_
    refine congrArg₂ (· + ·) ?_ ?_
    · -- the first product: the row against the first weight matrix
      refine (Cert.Lib.Rowwise.plain_matmul_zero_apply none _ _ p l).trans ?_
      refine Finset.sum_congr rfl fun k _ => ?_
      refine congrArg₂ (· * ·) ?_ rfl
      refine (truncf_apply (ψ := .bf16) _ bitsLt_bf16_f32 _).trans ?_
      exact congrFun (shapeCast_self A _) (ix2 p k)
    · refine (broadcastTo_1b_ab_apply _ _ p l).trans ?_
      exact congrFun (shapeCast_self b1 _) (ix2 0 l)
  · refine (broadcastTo_1b_ab_apply _ _ p q).trans ?_
    exact congrFun (shapeCast_self b2 _) (ix2 0 q)

/-- The two-layer map depends only on its row, weights and biases. -/
theorem mlp_congr {a a' : Fin 64 → EReal} {W₁ W₁' : Fin 64 → Fin 64 → EReal} {b₁ b₁' : Fin 64 → EReal}
    {W₂ W₂' : Fin 64 → Fin 64 → EReal} {b₂ b₂' : Fin 64 → EReal} (ha : a = a') (hW₁ : W₁ = W₁') (hb₁ : b₁ = b₁')
    (hW₂ : W₂ = W₂') (hb₂ : b₂ = b₂') (q : Fin 64) :
    Spec.mlp a W₁ b₁ W₂ b₂ q = Spec.mlp a' W₁' b₁' W₂' b₂' q := by
  subst ha hW₁ hb₁ hW₂ hb₂; rfl

/-- At point `t` the row-block windows (the input rows and the output rows) sit on block row `t`; each weight and bias
    window is its whole array at every point. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Where a block's entry sits in its array

Row `p` of the block at point `t` is array row `4000 t + p` in the input rows and in the output rows alike; a weight or bias
block's entry sits at the same index of its array. -/

theorem row_lt (t : Fin cfg1.N) (p : Fin 4000) : 4000 * t.val + p.val < 200000 := by
  have ht : t.val < 50 := lt_of_lt_of_eq t.isLt N_1
  have hp : p.val < 4000 := p.isLt
  omega

theorem emb_in (t : Fin cfg1.N) (p : Fin 4000) (k : Fin 64) :
    ((cfg1.win 0).blk t).view.emb (ix2 p k) = ix2 (⟨4000 * t.val + p.val, row_lt t p⟩ : Fin 200000) k := by
  obtain ⟨a0, a1, -⟩ := block_index t
  funext a; apply Fin.ext
  match a with
  | ⟨0, _⟩ => show win1_0.index t (0 : Fin 2) * 4000 + 1 * p.val = 4000 * t.val + p.val; omega
  | ⟨1, _⟩ => show win1_0.index t (1 : Fin 2) * 64 + 1 * k.val = k.val; omega

theorem emb_out (t : Fin cfg1.N) (p : Fin 4000) (q : Fin 64) :
    ((cfg1.win 5).blk t).view.emb (ix2 p q) = ix2 (⟨4000 * t.val + p.val, row_lt t p⟩ : Fin 200000) q := by
  obtain ⟨-, -, -, -, -, -, -, -, -, -, f0, f1⟩ := block_index t
  funext a; apply Fin.ext
  match a with
  | ⟨0, _⟩ => show win1_5.index t (0 : Fin 2) * 4000 + 1 * p.val = 4000 * t.val + p.val; omega
  | ⟨1, _⟩ => show win1_5.index t (1 : Fin 2) * 64 + 1 * q.val = q.val; omega

theorem emb_w1 (t : Fin cfg1.N) (j : S64x64.Idx) : ((cfg1.win 1).blk t).view.emb j = j := by
  obtain ⟨-, -, b0, b1, -⟩ := block_index t
  funext a; apply Fin.ext
  match a with
  | ⟨0, _⟩ => show win1_1.index t (0 : Fin 2) * 64 + 1 * (j 0).val = (j 0).val; omega
  | ⟨1, _⟩ => show win1_1.index t (1 : Fin 2) * 64 + 1 * (j 1).val = (j 1).val; omega

theorem emb_b1 (t : Fin cfg1.N) (j : S1x64.Idx) : ((cfg1.win 2).blk t).view.emb j = j := by
  obtain ⟨-, -, -, -, c0, c1, -⟩ := block_index t
  funext a; apply Fin.ext
  match a with
  | ⟨0, _⟩ => show win1_2.index t (0 : Fin 2) * 1 + 1 * (j 0).val = (j 0).val; omega
  | ⟨1, _⟩ => show win1_2.index t (1 : Fin 2) * 64 + 1 * (j 1).val = (j 1).val; omega

theorem emb_w2 (t : Fin cfg1.N) (j : S64x64.Idx) : ((cfg1.win 3).blk t).view.emb j = j := by
  obtain ⟨-, -, -, -, -, -, d0, d1, -⟩ := block_index t
  funext a; apply Fin.ext
  match a with
  | ⟨0, _⟩ => show win1_3.index t (0 : Fin 2) * 64 + 1 * (j 0).val = (j 0).val; omega
  | ⟨1, _⟩ => show win1_3.index t (1 : Fin 2) * 64 + 1 * (j 1).val = (j 1).val; omega

theorem emb_b2 (t : Fin cfg1.N) (j : S1x64.Idx) : ((cfg1.win 4).blk t).view.emb j = j := by
  obtain ⟨-, -, -, -, -, -, -, -, e0, e1, -⟩ := block_index t
  funext a; apply Fin.ext
  match a with
  | ⟨0, _⟩ => show win1_4.index t (0 : Fin 2) * 1 + 1 * (j 0).val = (j 0).val; omega
  | ⟨1, _⟩ => show win1_4.index t (1 : Fin 2) * 64 + 1 * (j 1).val = (j 1).val; omega

/-! ## What a point writes back is a block of the whole-array function -/

theorem flushed (c : Dev nD) (t : Fin cfg1.N) :
    (dat1 V c).flushed 5 t = ((cfg1.win 5).blk t).view.read (Elt Ideal)
      (Spec.mlpArr (V c main_v25) (V c main_arg3) (V c main_v26) (V c main_arg5) (V c main_v27)) := by
  show (cfg1.win 5).cut (grid1.coords t) ((dat1 V c).after 5 t) = _
  rw [after1_5]
  unfold out1_5
  rw [View.canon_unit_zero origin]
  simp only [View.ld_unit_zero (S := S4000x64) origin, View.ld_unit_zero (S := S64x64) origin,
    View.ld_unit_zero (S := S1x64) origin]
  funext j
  obtain ⟨p, q, rfl⟩ : ∃ (p : Fin 4000) (q : Fin 64), j = ix2 p q := ⟨j 0, j 1, eq_ix2 j⟩
  refine (payload _ _ _ _ _ p q).trans ?_
  show _ = Spec.mlpArr (V c main_v25) (V c main_arg3) (V c main_v26) (V c main_arg5) (V c main_v27)
    (((cfg1.win 5).blk t).view.emb (ix2 p q))
  refine Eq.trans ?_ (congrArg (Spec.mlpArr (V c main_v25) (V c main_arg3) (V c main_v26) (V c main_arg5) (V c main_v27))
    (emb_out t p q)).symm
  unfold Spec.mlpArr
  refine mlp_congr (funext fun k => ?_) (funext fun k => funext fun l => ?_) (funext fun l => ?_)
    (funext fun k => funext fun l => ?_) (funext fun l => ?_) q
  · -- the row block, read where the output block is written
    show V c main_v25 (((cfg1.win 0).blk t).view.emb (ix2 p k))
      = V c main_v25 (ix2 (⟨4000 * t.val + p.val, row_lt t p⟩ : Fin 200000) k)
    exact congrArg (V c main_v25) (emb_in t p k)
  · show V c main_arg3 (((cfg1.win 1).blk t).view.emb (ix2 k l)) = V c main_arg3 (ix2 k l)
    exact congrArg (V c main_arg3) (emb_w1 t (ix2 k l))
  · show V c main_v26 (((cfg1.win 2).blk t).view.emb (ix2 0 l)) = V c main_v26 (ix2 0 l)
    exact congrArg (V c main_v26) (emb_b1 t (ix2 0 l))
  · show V c main_arg5 (((cfg1.win 3).blk t).view.emb (ix2 k l)) = V c main_arg5 (ix2 k l)
    exact congrArg (V c main_arg5) (emb_w2 t (ix2 k l))
  · show V c main_v27 (((cfg1.win 4).blk t).view.emb (ix2 0 l)) = V c main_v27 (ix2 0 l)
    exact congrArg (V c main_v27) (emb_b2 t (ix2 0 l))

/-! ## The blocks cover the array -/

theorem mem_block (t : Fin cfg1.N) (i : S200000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v28).slice (win1_5.rect t)).set ↔ _
  rw [View.set_slice_whole, Rect.mem_set_unit]
  exact Iff.rfl

/-- The point whose block holds row `r` is `r / 4000`. -/
def pointOf (i : S200000x64.Idx) : Fin cfg1.N :=
  ⟨(i 0).val / 4000, lt_of_lt_of_eq (by have := ValueIdx.idx2_lt0 i; show (i 0).val / 4000 < 50; omega) N_1.symm⟩

theorem covered (i : S200000x64.Idx) :
    ∃ t : Fin cfg1.N, (cfg1.win 5).flush t = true ∧ i ∈ ((cfg1.win 5).blk t).view.set := by
  have hi1 : (i 1).val < 64 := (i 1).isLt
  obtain ⟨-, -, -, -, -, -, -, -, -, -, f0, f1⟩ := block_index (pointOf i)
  refine ⟨pointOf i, flush1_5 _, ?_⟩
  rw [mem_block]
  intro a
  match a with
  | ⟨0, _⟩ =>
    show win1_5.index (pointOf i) (0 : Fin 2) * 4000 ≤ (i 0).val ∧ (i 0).val < win1_5.index (pointOf i) (0 : Fin 2) * 4000 + 4000
    rw [f0]; show (i 0).val / 4000 * 4000 ≤ (i 0).val ∧ (i 0).val < (i 0).val / 4000 * 4000 + 4000; omega
  | ⟨1, _⟩ =>
    show win1_5.index (pointOf i) (1 : Fin 2) * 64 ≤ (i 1).val ∧ (i 1).val < win1_5.index (pointOf i) (1 : Fin 2) * 64 + 64
    rw [f1]; omega

/-! ## The output array after the region -/

/-- After the region the output array holds the two-layer map of every row of the stacked aggregates. -/
theorem mlp_rows (c : Dev nD) :
    (dat1 V c).arrAt 5 cfg1.N
      = Spec.mlpArr (V c main_v25) (V c main_arg3) (V c main_v26) (V c main_arg5) (V c main_v27) := by
  exact (dat1 V c).arrAt_eq_of_cover 5 _ (fun t _ => flushed V c t) covered

end Cert.Bridge.Mlp

end
-- ==== Proof.Projection.lean ====
/-
  The third kernel region: the last projection of every node row, as three partial products.
-/
import proofs.«172405_j30227979829589_1_alg».proof.Proof.Gen.KernelIdeal.Frame
import proofs.«172405_j30227979829589_1_alg».proof.Proof.Spec
import proofs.«172405_j30227979829589_1_alg».proof.Proof.LibRowwise
import Idealize.ShloMosaic.Lib.Pipeline.Value
import Idealize.ShloMosaic.Lib.ValueLayout

noncomputable section

namespace Cert.Bridge.Proj

open Cert.KernelIdeal Cert.KernelIdeal.Gen Idealize.ShloMosaic Idealize.ShloMosaic.TcCoe Idealize.SL.Sem
open Idealize.ShloMosaic.Pipeline (Dat)
open Idealize.ShloMosaic.ValueIdx
open Cert.Bridge

variable (V : (c : Dev nD) → (b : Ref sig .tc) → Buf (Elt Ideal) ((c : Thread nD τ).loc b))

theorem origin : (![0, 0] : Fin 2 → Nat) = fun _ => 0 := funext fun a => by fin_cases a <;> rfl

/-- One of the three partial products, read at row `p`, feature `q`: the 64-term sum along the row. -/
theorem product_apply (A : FVec Ideal S5000x64 .bf16) (W : FVec Ideal S64x64 .bf16) (p : Fin 5000) (q : Fin 64) :
    matmul dot_S5000x64_S64x64_S5000x64_1_0_0_1_n_n none A W (constant S5000x64 .f32 0x00000000#32) (ix2 p q)
      = ∑ k : Fin 64, A (ix2 p k) * W (ix2 k q) := by
  have hd : dot_S5000x64_S64x64_S5000x64_1_0_0_1_n_n = DotDims.plain 5000 64 64 :=
    Cert.Lib.Rowwise.eq_plain _ rfl rfl rfl rfl rfl rfl
  rw [hd]
  exact Cert.Lib.Rowwise.plain_matmul_zero_apply none A W p q

/-- The body's value at row `p`, feature `q` is the split projection of row `p` of the three blocks it loads. -/
theorem payload (X P O : Vec Ideal S5000x64 .f32) (Wx Wp Wo : Vec Ideal S64x64 .f32) (b : Vec Ideal S1x64 .f32)
    (p : Fin 5000) (q : Fin 64) :
    k2_pay1 X P O Wx Wp Wo b (ix2 p q)
      = Spec.projSplit (Spec.rowOf X p) (Spec.rowOf P p) (Spec.rowOf O p) (Spec.matOf Wx) (Spec.matOf Wp) (Spec.matOf Wo)
          (Spec.rowOf b 0) q := by
  unfold k2_pay1 Spec.projSplit
  simp only [shapeCast_self]
  refine (addf_apply _ _ _).trans (congrArg₂ (· + ·) ((addf_apply _ _ _).trans (congrArg₂ (· + ·)
    ((addf_apply _ _ _).trans (congrArg₂ (· + ·) ?_ ?_)) ?_)) ?_)
  · exact product_apply _ _ p q
  · exact product_apply _ _ p q
  · exact product_apply _ _ p q
  · exact broadcastTo_1b_ab_apply b _ p q

/-- The three row inputs and the output sit on block row `t`, column block 0, at point `t`; the three weight matrices
    and the bias are the whole array at every point. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## Where a block's entry sits in its array

Row `y` of a row block at point `t` is array row `5000 t + y` in the three row inputs and in the output, so an input row
is read exactly where the output row is written. A weight or bias block is its whole array. -/

theorem emb_0_7 (t : Fin cfg2.N) (j : S5000x64.Idx) : ((cfg2.win 0).blk t).view.emb j = ((cfg2.win 7).blk t).view.emb j := by
  obtain ⟨a0, a1, -, -, -, -, -, -, -, -, -, -, -, -, h0, h1⟩ := block_index t
  funext a; apply Fin.ext
  match a with
  | ⟨0, _⟩ => show win2_0.index t (0 : Fin 2) * 5000 + 1 * (j 0).val = win2_7.index t (0 : Fin 2) * 5000 + 1 * (j 0).val; omega
  | ⟨1, _⟩ => show win2_0.index t (1 : Fin 2) * 64 + 1 * (j 1).val = win2_7.index t (1 : Fin 2) * 64 + 1 * (j 1).val; omega

theorem emb_1_7 (t : Fin cfg2.N) (j : S5000x64.Idx) : ((cfg2.win 1).blk t).view.emb j = ((cfg2.win 7).blk t).view.emb j := by
  obtain ⟨-, -, b0, b1, -, -, -, -, -, -, -, -, -, -, h0, h1⟩ := block_index t
  funext a; apply Fin.ext
  match a with
  | ⟨0, _⟩ => show win2_1.index t (0 : Fin 2) * 5000 + 1 * (j 0).val = win2_7.index t (0 : Fin 2) * 5000 + 1 * (j 0).val; omega
  | ⟨1, _⟩ => show win2_1.index t (1 : Fin 2) * 64 + 1 * (j 1).val = win2_7.index t (1 : Fin 2) * 64 + 1 * (j 1).val; omega

theorem emb_2_7 (t : Fin cfg2.N) (j : S5000x64.Idx) : ((cfg2.win 2).blk t).view.emb j = ((cfg2.win 7).blk t).view.emb j := by
  obtain ⟨-, -, -, -, c0, c1, -, -, -, -, -, -, -, -, h0, h1⟩ := block_index t
  funext a; apply Fin.ext
  match a with
  | ⟨0, _⟩ => show win2_2.index t (0 : Fin 2) * 5000 + 1 * (j 0).val = win2_7.index t (0 : Fin 2) * 5000 + 1 * (j 0).val; omega
  | ⟨1, _⟩ => show win2_2.index t (1 : Fin 2) * 64 + 1 * (j 1).val = win2_7.index t (1 : Fin 2) * 64 + 1 * (j 1).val; omega

theorem emb_3 (t : Fin cfg2.N) (j : S64x64.Idx) : ((cfg2.win 3).blk t).view.emb j = j := by
  obtain ⟨-, -, -, -, -, -, d0, d1, -, -, -, -, -, -, -, -⟩ := block_index t
  funext a; apply Fin.ext
  match a with
  | ⟨0, _⟩ => show win2_3.index t (0 : Fin 2) * 64 + 1 * (j 0).val = (j 0).val; omega
  | ⟨1, _⟩ => show win2_3.index t (1 : Fin 2) * 64 + 1 * (j 1).val = (j 1).val; omega

theorem emb_4 (t : Fin cfg2.N) (j : S64x64.Idx) : ((cfg2.win 4).blk t).view.emb j = j := by
  obtain ⟨-, -, -, -, -, -, -, -, e0, e1, -, -, -, -, -, -⟩ := block_index t
  funext a; apply Fin.ext
  match a with
  | ⟨0, _⟩ => show win2_4.index t (0 : Fin 2) * 64 + 1 * (j 0).val = (j 0).val; omega
  | ⟨1, _⟩ => show win2_4.index t (1 : Fin 2) * 64 + 1 * (j 1).val = (j 1).val; omega

theorem emb_5 (t : Fin cfg2.N) (j : S64x64.Idx) : ((cfg2.win 5).blk t).view.emb j = j := by
  obtain ⟨-, -, -, -, -, -, -, -, -, -, f0, f1, -, -, -, -⟩ := block_index t
  funext a; apply Fin.ext
  match a with
  | ⟨0, _⟩ => show win2_5.index t (0 : Fin 2) * 64 + 1 * (j 0).val = (j 0).val; omega
  | ⟨1, _⟩ => show win2_5.index t (1 : Fin 2) * 64 + 1 * (j 1).val = (j 1).val; omega

theorem emb_6 (t : Fin cfg2.N) (j : S1x64.Idx) : ((cfg2.win 6).blk t).view.emb j = j := by
  obtain ⟨-, -, -, -, -, -, -, -, -, -, -, -, g0, g1, -, -⟩ := block_index t
  funext a; apply Fin.ext
  match a with
  | ⟨0, _⟩ => show win2_6.index t (0 : Fin 2) * 1 + 1 * (j 0).val = (j 0).val; omega
  | ⟨1, _⟩ => show win2_6.index t (1 : Fin 2) * 64 + 1 * (j 1).val = (j 1).val; omega

/-- Entry `(y, k)` of the output block lies in the array row of entry `(y, q)`, at column `k`. -/
theorem emb_7_row (t : Fin cfg2.N) (p : Fin 5000) (k q : Fin 64) :
    ((cfg2.win 7).blk t).view.emb (ix2 p k) = ix2 (Spec.rowIx (((cfg2.win 7).blk t).view.emb (ix2 p q))) k := by
  obtain ⟨-, -, -, -, -, -, -, -, -, -, -, -, -, -, h0, h1⟩ := block_index t
  funext a; apply Fin.ext
  match a with
  | ⟨0, _⟩ => show win2_7.index t (0 : Fin 2) * 5000 + 1 * p.val = win2_7.index t (0 : Fin 2) * 5000 + 1 * p.val; rfl
  | ⟨1, _⟩ => show win2_7.index t (1 : Fin 2) * 64 + 1 * k.val = k.val; omega

/-- Entry `(y, q)` of the output block lies in array column `q`. -/
theorem emb_7_col (t : Fin cfg2.N) (p : Fin 5000) (q : Fin 64) :
    Spec.colIx (((cfg2.win 7).blk t).view.emb (ix2 p q)) = q := by
  obtain ⟨-, -, -, -, -, -, -, -, -, -, -, -, -, -, h0, h1⟩ := block_index t
  apply Fin.ext
  show win2_7.index t (1 : Fin 2) * 64 + 1 * q.val = q.val
  omega

/-! ## What a point writes back is a block of the whole-array function -/

/-- The split projection depends only on its seven arguments and the feature. -/
theorem projSplit_congr {x x' p p' o o' : Fin 64 → EReal} {Wx Wx' Wp Wp' Wo Wo' : Fin 64 → Fin 64 → EReal}
    {b b' : Fin 64 → EReal} {q q' : Fin 64} (hx : x = x') (hp : p = p') (ho : o = o') (hWx : Wx = Wx') (hWp : Wp = Wp')
    (hWo : Wo = Wo') (hb : b = b') (hq : q = q') :
    Spec.projSplit x p o Wx Wp Wo b q = Spec.projSplit x' p' o' Wx' Wp' Wo' b' q' := by
  subst hx hp ho hWx hWp hWo hb hq
  rfl

theorem flushed (c : Dev nD) (t : Fin cfg2.N) :
    (dat2 V c).flushed 7 t = ((cfg2.win 7).blk t).view.read (Elt Ideal)
      (Spec.projArr (V c main_arg0) (V c main_v29) (V c main_v30) (V c main_v31) (V c main_v32) (V c main_v33) (V c main_v34)) := by
  show (cfg2.win 7).cut (grid2.coords t) ((dat2 V c).after 7 t) = _
  rw [after2_7]
  unfold out2_7
  rw [View.canon_unit_zero origin]
  simp only [View.ld_unit_zero (S := S5000x64) origin, View.ld_unit_zero (S := S64x64) origin,
    View.ld_unit_zero (S := S1x64) origin]
  funext j
  obtain ⟨p, q, rfl⟩ : ∃ (p : Fin 5000) (q : Fin 64), j = ix2 p q := ⟨j 0, j 1, eq_ix2 j⟩
  refine (payload _ _ _ _ _ _ _ p q).trans ?_
  show _ = Spec.projArr (V c main_arg0) (V c main_v29) (V c main_v30) (V c main_v31) (V c main_v32) (V c main_v33)
    (V c main_v34) (((cfg2.win 7).blk t).view.emb (ix2 p q))
  unfold Spec.projArr
  refine projSplit_congr ?_ ?_ ?_ ?_ ?_ ?_ ?_ ?_
  · funext k
    show V c main_arg0 (((cfg2.win 0).blk t).view.emb (ix2 p k))
      = V c main_arg0 (ix2 (Spec.rowIx (((cfg2.win 7).blk t).view.emb (ix2 p q))) k)
    exact congrArg (V c main_arg0) ((emb_0_7 t _).trans (emb_7_row t p k q))
  · funext k
    show V c main_v29 (((cfg2.win 1).blk t).view.emb (ix2 p k))
      = V c main_v29 (ix2 (Spec.rowIx (((cfg2.win 7).blk t).view.emb (ix2 p q))) k)
    exact congrArg (V c main_v29) ((emb_1_7 t _).trans (emb_7_row t p k q))
  · funext k
    show V c main_v30 (((cfg2.win 2).blk t).view.emb (ix2 p k))
      = V c main_v30 (ix2 (Spec.rowIx (((cfg2.win 7).blk t).view.emb (ix2 p q))) k)
    exact congrArg (V c main_v30) ((emb_2_7 t _).trans (emb_7_row t p k q))
  · funext k l
    show V c main_v31 (((cfg2.win 3).blk t).view.emb (ix2 k l)) = V c main_v31 (ix2 k l)
    exact congrArg (V c main_v31) (emb_3 t _)
  · funext k l
    show V c main_v32 (((cfg2.win 4).blk t).view.emb (ix2 k l)) = V c main_v32 (ix2 k l)
    exact congrArg (V c main_v32) (emb_4 t _)
  · funext k l
    show V c main_v33 (((cfg2.win 5).blk t).view.emb (ix2 k l)) = V c main_v33 (ix2 k l)
    exact congrArg (V c main_v33) (emb_5 t _)
  · funext k
    show V c main_v34 (((cfg2.win 6).blk t).view.emb (ix2 (0 : Fin 1) k)) = V c main_v34 (ix2 (0 : Fin 1) k)
    exact congrArg (V c main_v34) (emb_6 t _)
  · exact (emb_7_col t p q).symm

/-! ## The blocks cover the array -/

theorem mem_block (t : Fin cfg2.N) (i : S100000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v35).slice (win2_7.rect t)).set ↔ _
  rw [View.set_slice_whole, Rect.mem_set_unit]
  exact Iff.rfl

/-- The point whose block holds row `r` is `r / 5000`. -/
def pointOf (i : S100000x64.Idx) : Fin cfg2.N :=
  ⟨(i 0).val / 5000, lt_of_lt_of_eq (by have := idx2_lt0 i; show (i 0).val / 5000 < 20; omega) N_2.symm⟩

theorem covered (i : S100000x64.Idx) :
    ∃ t : Fin cfg2.N, (cfg2.win 7).flush t = true ∧ i ∈ ((cfg2.win 7).blk t).view.set := by
  have hi1 : (i 1).val < 64 := (i 1).isLt
  obtain ⟨-, -, -, -, -, -, -, -, -, -, -, -, -, -, h0, h1⟩ := block_index (pointOf i)
  refine ⟨pointOf i, flush2_7 _, ?_⟩
  rw [mem_block]
  intro a
  match a with
  | ⟨0, _⟩ =>
    show win2_7.index (pointOf i) (0 : Fin 2) * 5000 ≤ (i 0).val ∧ (i 0).val < win2_7.index (pointOf i) (0 : Fin 2) * 5000 + 5000
    rw [h0]; show (i 0).val / 5000 * 5000 ≤ (i 0).val ∧ (i 0).val < (i 0).val / 5000 * 5000 + 5000; omega
  | ⟨1, _⟩ =>
    show win2_7.index (pointOf i) (1 : Fin 2) * 64 ≤ (i 1).val ∧ (i 1).val < win2_7.index (pointOf i) (1 : Fin 2) * 64 + 64
    rw [h1]; omega

/-- After the region the result array holds the projection of every node's three rows. -/
theorem projected (c : Dev nD) :
    (dat2 V c).arrAt 7 cfg2.N
      = Spec.projArr (V c main_arg0) (V c main_v29) (V c main_v30) (V c main_v31) (V c main_v32) (V c main_v33) (V c main_v34) := by
  exact (dat2 V c).arrAt_eq_of_cover 7 _ (fun t _ => flushed V c t) covered

end Cert.Bridge.Proj

end
-- ==== Proof.RefRead.lean ====
/-
  The reference's result read at one node `r` and one output feature `j`.

  Its last operations join each node's own row with its two mapped aggregate rows into one row of 192 features,
  multiply by the 192 × 64 projection matrix and add the bias. Each mapped row is the shared two-layer map of the
  node's aggregate row: a 64-term product with the first weight matrix, the first bias, the rectifier, a 64-term
  product with the second weight matrix, the second bias. The aggregates themselves (scatter-adds of the messages)
  are kept as the reference's own terms.
-/
import proofs.«172405_j30227979829589_1_alg».proof.Proof.Gen.ReferenceIdeal.Read
import proofs.«172405_j30227979829589_1_alg».proof.Proof.Spec

noncomputable section

open scoped BigOperators

namespace Cert.Bridge.Ref

open Cert.ReferenceIdeal Cert.ReferenceIdeal.Read Idealize.ShloMosaic Idealize.ShloMosaic.ValueIdx
open Cert.Bridge

/-- A length-64 vector as a function of its coordinate. -/
abbrev vecOf (b : FVec Ideal ⟨1, ![64]⟩ .f32) : Fin 64 → EReal := fun q => b (ix1 q)

variable (x0 : Spec.Arr 100000 64) (x1 : (⟨S2x1250000, .i32⟩ : BufTy).Contents (Elt Ideal)) (x2 : Spec.Arr 1250000 64)
  (x3 : Spec.Arr 64 64) (x4 : FVec Ideal ⟨1, ![64]⟩ .f32) (x5 : Spec.Arr 64 64) (x6 : FVec Ideal ⟨1, ![64]⟩ .f32)
  (x7 : Spec.Arr 192 64) (x8 : FVec Ideal ⟨1, ![64]⟩ .f32)

/-! ## The two-layer map of an aggregate row -/

/-- Hidden unit `l` of node `r`, from the aggregate over incoming edges. -/
theorem hidden_in (r : Fin 100000) (l : Fin 64) :
    val_main_v22 (F := Ideal) x0 x1 x2 x3 x4 (ix2 r l)
      = Spec.hidden (Spec.rowOf (val_main_v16 (F := Ideal) x0 x1 x2) r) (Spec.matOf x3) (vecOf x4) l := by
  rw [val_main_v22_apply, val_main_v20_apply, val_main_v17_apply, val_main_v19_apply, val_main_v18_apply, val_main_v21_apply, val_main_cst_2_apply]
  have e1 : ∀ k : Fin 64, lidx_main_v17 (ix2 r l) k = ix2 r k := fun k => funext fun a => by match a with | ⟨0, _⟩ => rfl | ⟨1, _⟩ => rfl
  have e2 : ∀ k : Fin 64, ridx_main_v17 (ix2 r l) k = ix2 k l := fun k => funext fun a => by match a with | ⟨0, _⟩ => rfl | ⟨1, _⟩ => rfl
  have e3 : idx_main_v18 (idx_main_v19 (ix2 r l)) = ix1 l := funext fun a => by match a with | ⟨0, _⟩ => rfl
  simp only [e1, e2, e3]
  rfl

/-- The mapped incoming aggregate of node `r`, feature `k`. -/
theorem mlp_in (r : Fin 100000) (k : Fin 64) :
    val_main_v26 (F := Ideal) x0 x1 x2 x3 x4 x5 x6 (ix2 r k)
      = Spec.mlp (Spec.rowOf (val_main_v16 (F := Ideal) x0 x1 x2) r) (Spec.matOf x3) (vecOf x4) (Spec.matOf x5) (vecOf x6) k := by
  rw [val_main_v26_apply, val_main_v23_apply, val_main_v25_apply, val_main_v24_apply]
  have e1 : ∀ l : Fin 64, lidx_main_v23 (ix2 r k) l = ix2 r l := fun l => funext fun a => by match a with | ⟨0, _⟩ => rfl | ⟨1, _⟩ => rfl
  have e2 : ∀ l : Fin 64, ridx_main_v23 (ix2 r k) l = ix2 l k := fun l => funext fun a => by match a with | ⟨0, _⟩ => rfl | ⟨1, _⟩ => rfl
  have e3 : idx_main_v24 (idx_main_v25 (ix2 r k)) = ix1 k := funext fun a => by match a with | ⟨0, _⟩ => rfl
  simp only [e1, e2, e3, hidden_in]
  rfl

/-- Hidden unit `l` of node `r`, from the aggregate over outgoing edges. -/
theorem hidden_out (r : Fin 100000) (l : Fin 64) :
    val_main_v45 (F := Ideal) x0 x1 x2 x3 x4 (ix2 r l)
      = Spec.hidden (Spec.rowOf (val_main_v39 (F := Ideal) x0 x1 x2) r) (Spec.matOf x3) (vecOf x4) l := by
  rw [val_main_v45_apply, val_main_v43_apply, val_main_v40_apply, val_main_v42_apply, val_main_v41_apply, val_main_v44_apply, val_main_cst_7_apply]
  have e1 : ∀ k : Fin 64, lidx_main_v40 (ix2 r l) k = ix2 r k := fun k => funext fun a => by match a with | ⟨0, _⟩ => rfl | ⟨1, _⟩ => rfl
  have e2 : ∀ k : Fin 64, ridx_main_v40 (ix2 r l) k = ix2 k l := fun k => funext fun a => by match a with | ⟨0, _⟩ => rfl | ⟨1, _⟩ => rfl
  have e3 : idx_main_v41 (idx_main_v42 (ix2 r l)) = ix1 l := funext fun a => by match a with | ⟨0, _⟩ => rfl
  simp only [e1, e2, e3]
  rfl

/-- The mapped outgoing aggregate of node `r`, feature `k`. -/
theorem mlp_out (r : Fin 100000) (k : Fin 64) :
    val_main_v49 (F := Ideal) x0 x1 x2 x3 x4 x5 x6 (ix2 r k)
      = Spec.mlp (Spec.rowOf (val_main_v39 (F := Ideal) x0 x1 x2) r) (Spec.matOf x3) (vecOf x4) (Spec.matOf x5) (vecOf x6) k := by
  rw [val_main_v49_apply, val_main_v46_apply, val_main_v48_apply, val_main_v47_apply]
  have e1 : ∀ l : Fin 64, lidx_main_v46 (ix2 r k) l = ix2 r l := fun l => funext fun a => by match a with | ⟨0, _⟩ => rfl | ⟨1, _⟩ => rfl
  have e2 : ∀ l : Fin 64, ridx_main_v46 (ix2 r k) l = ix2 l k := fun l => funext fun a => by match a with | ⟨0, _⟩ => rfl | ⟨1, _⟩ => rfl
  have e3 : idx_main_v47 (idx_main_v48 (ix2 r k)) = ix1 k := funext fun a => by match a with | ⟨0, _⟩ => rfl
  simp only [e1, e2, e3, hidden_out]
  rfl

/-! ## The joined row -/

/-- Feature `k` of node `r`'s joined row: the node's own feature for `k < 64`, the mapped incoming aggregate for
    `64 ≤ k < 128`, the mapped outgoing aggregate beyond. -/
theorem joined_row (r : Fin 100000) (k : Fin 192) :
    val_main_v50 (F := Ideal) x0 x1 x2 x3 x4 x5 x6 (ix2 r k)
      = Spec.joined (Spec.rowOf x0 r) (fun k' => val_main_v26 (F := Ideal) x0 x1 x2 x3 x4 x5 x6 (ix2 r k'))
          (fun k' => val_main_v49 (F := Ideal) x0 x1 x2 x3 x4 x5 x6 (ix2 r k')) k := by
  unfold val_main_v50 Spec.joined
  by_cases h1 : k.val < 64
  · rw [dif_pos h1]
    refine concatenate_apply_piece _ _ _ (ix2 r k) 0 (by show (0 : Nat) < 3; omega) S100000x64 x0 rfl rfl 0 rfl (ix2 r ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 128
    · rw [dif_pos h2]
      refine concatenate_apply_piece _ _ _ (ix2 r k) 1 (by show (1 : Nat) < 3; omega) S100000x64 (val_main_v26 (F := Ideal) x0 x1 x2 x3 x4 x5 x6) rfl rfl 64 rfl
        (ix2 r ⟨k.val - 64, by omega⟩) (fun b hb => ?_) ?_
      · match b with
        | ⟨0, _⟩ => rfl
        | ⟨1, _⟩ => exact absurd rfl hb
      · show 64 + (k.val - 64) = k.val
        omega
    · rw [dif_neg h2]
      have hk : k.val < 192 := k.isLt
      refine concatenate_apply_piece _ _ _ (ix2 r k) 2 (by show (2 : Nat) < 3; omega) S100000x64 (val_main_v49 (F := Ideal) x0 x1 x2 x3 x4 x5 x6) rfl rfl 128 rfl
        (ix2 r ⟨k.val - 128, by omega⟩) (fun b hb => ?_) ?_
      · match b with
        | ⟨0, _⟩ => rfl
        | ⟨1, _⟩ => exact absurd rfl hb
      · show 128 + (k.val - 128) = k.val
        omega

/-! ## The result -/

/-- The reference's result at node `r`, feature `j`: the joined row times the projection matrix, plus the bias. -/
theorem result (r : Fin 100000) (j : Fin 64) :
    val_main_v54 (F := Ideal) x0 x1 x2 x3 x4 x5 x6 x7 x8 (ix2 r j)
      = Spec.projJoined (Spec.rowOf x0 r)
          (Spec.mlp (Spec.rowOf (val_main_v16 (F := Ideal) x0 x1 x2) r) (Spec.matOf x3) (vecOf x4) (Spec.matOf x5) (vecOf x6))
          (Spec.mlp (Spec.rowOf (val_main_v39 (F := Ideal) x0 x1 x2) r) (Spec.matOf x3) (vecOf x4) (Spec.matOf x5) (vecOf x6))
          (Spec.matOf x7) (vecOf x8) j := by
  rw [val_main_v54_apply, val_main_v51_apply, val_main_v53_apply, val_main_v52_apply]
  have e1 : ∀ k : Fin 192, lidx_main_v51 (ix2 r j) k = ix2 r k := fun k => funext fun a => by match a with | ⟨0, _⟩ => rfl | ⟨1, _⟩ => rfl
  have e2 : ∀ k : Fin 192, ridx_main_v51 (ix2 r j) k = ix2 k j := fun k => funext fun a => by match a with | ⟨0, _⟩ => rfl | ⟨1, _⟩ => rfl
  have e3 : idx_main_v52 (idx_main_v53 (ix2 r j)) = ix1 j := funext fun a => by match a with | ⟨0, _⟩ => rfl
  have ein : (fun k' => val_main_v26 (F := Ideal) x0 x1 x2 x3 x4 x5 x6 (ix2 r k'))
      = Spec.mlp (Spec.rowOf (val_main_v16 (F := Ideal) x0 x1 x2) r) (Spec.matOf x3) (vecOf x4) (Spec.matOf x5) (vecOf x6) :=
    funext fun k' => mlp_in x0 x1 x2 x3 x4 x5 x6 r k'
  have eout : (fun k' => val_main_v49 (F := Ideal) x0 x1 x2 x3 x4 x5 x6 (ix2 r k'))
      = Spec.mlp (Spec.rowOf (val_main_v39 (F := Ideal) x0 x1 x2) r) (Spec.matOf x3) (vecOf x4) (Spec.matOf x5) (vecOf x6) :=
    funext fun k' => mlp_out x0 x1 x2 x3 x4 x5 x6 r k'
  simp only [e1, e2, e3, joined_row, ein, eout]
  rfl

end Cert.Bridge.Ref

end
-- ==== Proof.KernelRead.lean ====
/-
  The idealized kernel's result read at one node `r` and one output feature `j`.

  The last region leaves the split projection of three rows: the node's own row, row `r` of the first half of the
  stacked two-layer map, and row `r` of its second half (row `100000 + r` of the stack), against the three 64-row bands
  of the projection matrix. The second region leaves, in every row of the stack, the two-layer map of the same row of
  the stacked aggregates; the first half of that stack is the aggregate over incoming edges and the second half the
  aggregate over outgoing edges, both the reference's own terms.
-/
import proofs.«172405_j30227979829589_1_alg».proof.Proof.Stretches
import proofs.«172405_j30227979829589_1_alg».proof.Proof.NodeMlp
import proofs.«172405_j30227979829589_1_alg».proof.Proof.Projection
import proofs.«172405_j30227979829589_1_alg».proof.Proof.RefRead
import Idealize.ShloMosaic.Lib.ValueLayout

noncomputable section

open scoped BigOperators

namespace Cert.Bridge.Kernel

open Cert.KernelIdeal Cert.KernelIdeal.Gen Idealize.ShloMosaic Idealize.ShloMosaic.TcCoe Idealize.SL.Sem
open Idealize.ShloMosaic.ValueIdx
open Cert.Bridge
open Cert.Bridge.Ref (vecOf)
open Cert.ReferenceIdeal.Read (val_main_v16 val_main_v39)

/-! ## Layout operations read at a row -/

/-- Row `r` of the first half of a 200000-row stack. -/
theorem firstHalf_row (M : Spec.Arr 200000 64) (r : Fin 100000) :
    Spec.rowOf (extractStridedSlice S100000x64 ![0, 0] M slices_S200000x64_S100000x64_0_0) r
      = Spec.rowOf M ⟨r.val, by omega⟩ := by
  funext k
  refine extractStridedSlice_apply _ M _ (ix2 r k) (ix2 ⟨r.val, by omega⟩ k) fun a => ?_
  match a with
  | ⟨0, _⟩ => show r.val = 0 + r.val; omega
  | ⟨1, _⟩ => show k.val = 0 + k.val; omega

/-- Row `r` of the second half of a 200000-row stack is its row `100000 + r`. -/
theorem secondHalf_row (M : Spec.Arr 200000 64) (r : Fin 100000) :
    Spec.rowOf (extractStridedSlice S100000x64 ![100000, 0] M slices_S200000x64_S100000x64_100000_0) r
      = Spec.rowOf M ⟨100000 + r.val, by omega⟩ := by
  funext k
  refine extractStridedSlice_apply _ M _ (ix2 r k) (ix2 ⟨100000 + r.val, by omega⟩ k) fun a => ?_
  match a with
  | ⟨0, _⟩ => show 100000 + r.val = 100000 + r.val; rfl
  | ⟨1, _⟩ => show k.val = 0 + k.val; omega

/-- The three 64-row bands of the projection matrix. -/
theorem topBand (W : Spec.Arr 192 64) :
    Spec.matOf (extractStridedSlice S64x64 ![0, 0] W slices_S192x64_S64x64_0_0) = Spec.topRows (Spec.matOf W) := by
  funext k q
  refine extractStridedSlice_apply _ W _ (ix2 k q) (ix2 ⟨k.val, by omega⟩ q) fun a => ?_
  match a with
  | ⟨0, _⟩ => show k.val = 0 + k.val; omega
  | ⟨1, _⟩ => show q.val = 0 + q.val; omega
theorem midBand (W : Spec.Arr 192 64) :
    Spec.matOf (extractStridedSlice S64x64 ![64, 0] W slices_S192x64_S64x64_64_0) = Spec.midRows (Spec.matOf W) := by
  funext k q
  refine extractStridedSlice_apply _ W _ (ix2 k q) (ix2 ⟨64 + k.val, by omega⟩ q) fun a => ?_
  match a with
  | ⟨0, _⟩ => show 64 + k.val = 64 + k.val; rfl
  | ⟨1, _⟩ => show q.val = 0 + q.val; omega
theorem botBand (W : Spec.Arr 192 64) :
    Spec.matOf (extractStridedSlice S64x64 ![128, 0] W slices_S192x64_S64x64_128_0) = Spec.botRows (Spec.matOf W) := by
  funext k q
  refine extractStridedSlice_apply _ W _ (ix2 k q) (ix2 ⟨128 + k.val, by omega⟩ q) fun a => ?_
  match a with
  | ⟨0, _⟩ => show 128 + k.val = 128 + k.val; rfl
  | ⟨1, _⟩ => show q.val = 0 + q.val; omega

/-- A length-64 vector reshaped to one row, read along that row. -/
theorem oneRow (b : FVec Ideal ⟨1, ![64]⟩ .f32) :
    Spec.rowOf (shapeCast S1x64 b shapeCasts_S64_S1x64) 0 = vecOf b :=
  funext fun q => shapeCast_a_1a_apply b shapeCasts_S64_S1x64 0 q

/-- Row `r` of two 100000-row arrays stacked is row `r` of the first. -/
theorem stack_row_first (P Q : Spec.Arr 100000 64) (r : Fin 100000) :
    Spec.rowOf (r := 200000) (c := 64)
        (concatenate S200000x64 0 [⟨S100000x64, P⟩, ⟨S100000x64, Q⟩] concatenates_S100000x64_S100000x64_S200000x64_d0)
        ⟨r.val, by omega⟩ = Spec.rowOf P r := by
  funext k
  show concatenate S200000x64 0 [⟨S100000x64, P⟩, ⟨S100000x64, Q⟩] concatenates_S100000x64_S100000x64_S200000x64_d0
      (ix2 (⟨r.val, by omega⟩ : Fin 200000) k) = P (ix2 r k)
  refine concatenate_pair_apply_left (t := S200000x64) (s₁ := S100000x64) (s₂ := S100000x64) (0 : Fin 2) P Q _ _ rfl (ix2 r k) fun b => ?_
  match b with
  | ⟨0, _⟩ => rfl
  | ⟨1, _⟩ => rfl

/-- Row `100000 + r` of two 100000-row arrays stacked is row `r` of the second. -/
theorem stack_row_second (P Q : Spec.Arr 100000 64) (r : Fin 100000) :
    Spec.rowOf (r := 200000) (c := 64)
        (concatenate S200000x64 0 [⟨S100000x64, P⟩, ⟨S100000x64, Q⟩] concatenates_S100000x64_S100000x64_S200000x64_d0)
        ⟨100000 + r.val, by omega⟩ = Spec.rowOf Q r := by
  funext k
  show concatenate S200000x64 0 [⟨S100000x64, P⟩, ⟨S100000x64, Q⟩] concatenates_S100000x64_S100000x64_S200000x64_d0
      (ix2 (⟨100000 + r.val, by omega⟩ : Fin 200000) k) = Q (ix2 r k)
  refine concatenate_pair_apply_right (t := S200000x64) (s₁ := S100000x64) (s₂ := S100000x64) (0 : Fin 2) P Q _ _ rfl rfl (ix2 r k) (fun b hb => ?_) ?_
  · match b with
    | ⟨0, _⟩ => exact absurd rfl hb
    | ⟨1, _⟩ => rfl
  · show r.val + 100000 = 100000 + r.val
    omega

/-- The two-layer map of an array, read along one of its rows. -/
theorem mlpArr_row {R : Nat} (A : Spec.Arr R 64) (W₁ : Spec.Arr 64 64) (b₁ : Spec.Arr 1 64) (W₂ : Spec.Arr 64 64)
    (b₂ : Spec.Arr 1 64) (p : Fin R) :
    Spec.rowOf (Spec.mlpArr A W₁ b₁ W₂ b₂) p
      = Spec.mlp (Spec.rowOf A p) (Spec.matOf W₁) (Spec.rowOf b₁ 0) (Spec.matOf W₂) (Spec.rowOf b₂ 0) := rfl

/-! ## The result -/

variable (m : (ℓ : Loc nD τ sig) → Buf (Elt Ideal) ℓ) (ρ : Dev nD → PrngReg)

/-- The stack the third region reads its two mapped inputs from. -/
theorem mapped_stack (c : Dev nD) :
    (dat1 (V3 m ρ) c).arrAt 5 cfg1.N
      = Spec.mlpArr (concatenate S200000x64 0 [⟨S100000x64, (val_main_v16 (F := Ideal) (m ((c.tc : Thread nD τ).loc main_arg0)) (m ((c.tc : Thread nD τ).loc main_arg1)) (m ((c.tc : Thread nD τ).loc main_arg2)))⟩, ⟨S100000x64, (val_main_v39 (F := Ideal) (m ((c.tc : Thread nD τ).loc main_arg0)) (m ((c.tc : Thread nD τ).loc main_arg1)) (m ((c.tc : Thread nD τ).loc main_arg2)))⟩] concatenates_S100000x64_S100000x64_S200000x64_d0)
          (m ((c.tc : Thread nD τ).loc main_arg3)) (shapeCast S1x64 (m ((c.tc : Thread nD τ).loc main_arg4)) shapeCasts_S64_S1x64) (m ((c.tc : Thread nD τ).loc main_arg5)) (shapeCast S1x64 (m ((c.tc : Thread nD τ).loc main_arg6)) shapeCasts_S64_S1x64) := by
  rw [Mlp.mlp_rows, Stretch.stacked, Stretch.at3_arg3, Stretch.at3_arg5, Stretch.at3_bias1, Stretch.at3_bias2]

/-- The kernel's result at node `r`, feature `j`. -/
theorem result (c : Dev nD) (r : Fin 100000) (j : Fin 64) :
    W6 m ρ c (Proc.devRef .tc main_v35) (ix2 r j)
      = Spec.projSplit (Spec.rowOf (m ((c.tc : Thread nD τ).loc main_arg0)) r)
          (Spec.mlp (Spec.rowOf (val_main_v16 (F := Ideal) (m ((c.tc : Thread nD τ).loc main_arg0)) (m ((c.tc : Thread nD τ).loc main_arg1)) (m ((c.tc : Thread nD τ).loc main_arg2))) r) (Spec.matOf (m ((c.tc : Thread nD τ).loc main_arg3))) (vecOf (m ((c.tc : Thread nD τ).loc main_arg4))) (Spec.matOf (m ((c.tc : Thread nD τ).loc main_arg5))) (vecOf (m ((c.tc : Thread nD τ).loc main_arg6))))
          (Spec.mlp (Spec.rowOf (val_main_v39 (F := Ideal) (m ((c.tc : Thread nD τ).loc main_arg0)) (m ((c.tc : Thread nD τ).loc main_arg1)) (m ((c.tc : Thread nD τ).loc main_arg2))) r) (Spec.matOf (m ((c.tc : Thread nD τ).loc main_arg3))) (vecOf (m ((c.tc : Thread nD τ).loc main_arg4))) (Spec.matOf (m ((c.tc : Thread nD τ).loc main_arg5))) (vecOf (m ((c.tc : Thread nD τ).loc main_arg6))))
          (Spec.topRows (Spec.matOf (m ((c.tc : Thread nD τ).loc main_arg7)))) (Spec.midRows (Spec.matOf (m ((c.tc : Thread nD τ).loc main_arg7)))) (Spec.botRows (Spec.matOf (m ((c.tc : Thread nD τ).loc main_arg7))))
          (vecOf (m ((c.tc : Thread nD τ).loc main_arg8))) j := by
  have h7 : W6 m ρ c (Proc.devRef .tc main_v35) = (dat2 (V5 m ρ) c).arrAt 7 cfg2.N := W6_arr m ρ c 7
  rw [h7, Proj.projected, Stretch.at5_nodes, Stretch.at5_in, Stretch.at5_out, Stretch.at5_top, Stretch.at5_mid,
    Stretch.at5_bot, Stretch.at5_bias, mapped_stack]
  show Spec.projSplit (Spec.rowOf (r := 100000) (c := 64) _ r) (Spec.rowOf (r := 100000) (c := 64) _ r)
    (Spec.rowOf (r := 100000) (c := 64) _ r) _ _ _ _ j = _
  refine Proj.projSplit_congr rfl ?_ ?_ (topBand _) (midBand _) (botBand _) (oneRow _) rfl
  · rw [firstHalf_row, mlpArr_row, stack_row_first, oneRow, oneRow]
  · rw [secondHalf_row, mlpArr_row, stack_row_second, oneRow, oneRow]

end Cert.Bridge.Kernel

end
-- ==== Proof.lean ====
/-
  A bidirectional edge-conditioned message-passing layer on a graph of 100 000 nodes and 1 250 000 edges with 64
  features: the kernel program against its plain reference, over the extended reals.

  Both programs gather a node row per edge for each direction, add the edge's features and rectify (the message), add
  every message into its node's row (the aggregate over incoming edges and the aggregate over outgoing edges), pass
  each aggregate row through one shared two-layer map, and project the node's own row together with its two mapped
  rows by a 192 × 64 matrix plus a bias.

  The kernel program does the message step, the two-layer map and the projection in three tiled kernel regions, with
  the gathers and scatter-adds between them on the host. It differs from the reference in three ways, none of which
  changes a value at the extended reals: it rounds matrix operands to a narrower float format (the identity here); it
  maps the two aggregates stacked as one 200 000-row array and cuts the result in two, where the reference maps them
  one after the other (the map acts on each row by itself); and it forms the projection as three 64-term products
  with the three 64-row bands of the matrix added left to right, where the reference forms one 192-term product of
  the joined row (a sum over 192 indices is the sum over its three runs of 64, by associativity alone, so no entry
  need be finite and the precondition is not used).

  The three frames: the kernel program's at both instances is the generated frame of its three regions; the
  reference's is its run with the result dropped. The idealized kernel is the kernel's own text read at the extended
  reals (no rewrite), so there is nothing to preserve. For the value claim the common result is the kernel's own
  result array, the contents of the result buffer at the last boundary of its run; the reference's result is shown
  equal to it entry by entry.
-/
import proofs.«172405_j30227979829589_1_alg».proof.Defs
import proofs.«172405_j30227979829589_1_alg».proof.Proof.Gen.Kernel
import proofs.«172405_j30227979829589_1_alg».proof.Proof.Gen.Kernel.Skeleton
import proofs.«172405_j30227979829589_1_alg».proof.Proof.Gen.Kernel.Launch
import proofs.«172405_j30227979829589_1_alg».proof.Proof.Gen.Kernel.Points
import proofs.«172405_j30227979829589_1_alg».proof.Proof.Gen.Kernel.Frame
import proofs.«172405_j30227979829589_1_alg».proof.Proof.Gen.KernelIdeal
import proofs.«172405_j30227979829589_1_alg».proof.Proof.Gen.KernelIdeal.Skeleton
import proofs.«172405_j30227979829589_1_alg».proof.Proof.Gen.KernelIdeal.Launch
import proofs.«172405_j30227979829589_1_alg».proof.Proof.Gen.KernelIdeal.Points
import proofs.«172405_j30227979829589_1_alg».proof.Proof.Gen.KernelIdeal.Frame
import proofs.«172405_j30227979829589_1_alg».proof.Proof.Gen.ReferenceIdeal
import proofs.«172405_j30227979829589_1_alg».proof.Proof.Gen.ReferenceIdeal.Run
import proofs.«172405_j30227979829589_1_alg».proof.Proof.Gen.ReferenceIdeal.Read
import proofs.«172405_j30227979829589_1_alg».proof.Proof.Gen.Pre_finite_inputs
import proofs.«172405_j30227979829589_1_alg».proof.Proof.KernelRun
import proofs.«172405_j30227979829589_1_alg».proof.Proof.KernelRead
import proofs.«172405_j30227979829589_1_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-! ## The two results are one array -/

/-- The kernel's result array is the reference's term of the same launch arrays: at node `r`, feature `j` the
    kernel holds the split projection and the reference the joined one, of the same three rows. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W6 m ρ c (Proc.devRef .tc Cert.KernelIdeal.main_v35)
      = Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨r, j, rfl⟩ : ∃ (r : Fin 100000) (j : Fin 64), i = ix2 r j := ⟨i 0, i 1, eq_ix2 i⟩
  rw [Cert.Bridge.Kernel.result, Cert.Bridge.Ref.result, Cert.Bridge.Spec.projJoined_eq_projSplit]

/-! ## The value claim -/

theorem algebraic : Cert.algebraic_KernelIdeal_ReferenceIdeal := by
  intro m ρ m' ρ' _ hagree
  refine ⟨fun c => Cert.KernelIdeal.Gen.W6 m ρ c (Proc.devRef .tc Cert.KernelIdeal.main_v35),
    Cert.Bridge.KernelRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq]
  obtain ⟨h0, h1, h2, h3, h4, h5, h6, h7, h8⟩ := hagree c
  rw [h0, h1, h2, h3, h4, h5, h6, h7, h8]
  exact (results_agree m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
